-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1x2048 : Shape := ⟨2, ![1, 2048]⟩
abbrev S1024x1 : Shape := ⟨2, ![1024, 1]⟩
abbrev S2048x128 : Shape := ⟨2, ![2048, 128]⟩
abbrev S1024x2048 : Shape := ⟨2, ![1024, 2048]⟩
abbrev S1x128 : Shape := ⟨2, ![1, 128]⟩
abbrev S1024 : Shape := ⟨1, ![1024]⟩

abbrev nBuf : Space → Nat
  | .hbm => 55
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x128, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S1x8192, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S1x8192, .f32⟩
  | .hbm, ⟨41, _⟩ => ⟨S8192x128, .bf16⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S8192x128, .bf16⟩
  | .hbm, ⟨46, _⟩ => ⟨S8192x1, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x128, .f32⟩
  | .local _ .vmem, ⟨12, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_cst_8 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v287 : BitVec 1 := Scalar.cmpi .eq arg1 c3_i32
  let v288 : BitVec 32 := Scalar.extui v287
  let c0_i32_135 : BitVec 32 := 0#32
  let v289 : BitVec 1 := Scalar.cmpi .ne v288 c0_i32_135
  v289

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8192 : S_.BroadcastsInDim S8192 (![] : Fin 0 → Fin S8192.rank)
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  bitsLt_bf16_f32 : FTy.bits .bf16 < FTy.bits .f32
  bcast_S_S8192x128 : S_.BroadcastsInDim S8192x128 (![] : Fin 0 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S1024x2048_o0_0_S1024x128 : S1024x2048.Slices ![0, 0] S1024x128
  slices_S1x2048_o0_0_S1x128 : S1x2048.Slices ![0, 0] S1x128
  broadcasts_S1x128_S1024x128 : S1x128.Broadcasts S1024x128
  slices_S1024x2048_o0_128_S1024x128 : S1024x2048.Slices ![0, 128] S1024x128
  slices_S1x2048_o0_128_S1x128 : S1x2048.Slices ![0, 128] S1x128
  slices_S1024x2048_o0_256_S1024x128 : S1024x2048.Slices ![0, 256] S1024x128
  slices_S1x2048_o0_256_S1x128 : S1x2048.Slices ![0, 256] S1x128
  slices_S1024x2048_o0_384_S1024x128 : S1024x2048.Slices ![0, 384] S1024x128
  slices_S1x2048_o0_384_S1x128 : S1x2048.Slices ![0, 384] S1x128
  slices_S1024x2048_o0_512_S1024x128 : S1024x2048.Slices ![0, 512] S1024x128
  slices_S1x2048_o0_512_S1x128 : S1x2048.Slices ![0, 512] S1x128
  slices_S1024x2048_o0_640_S1024x128 : S1024x2048.Slices ![0, 640] S1024x128
  slices_S1x2048_o0_640_S1x128 : S1x2048.Slices ![0, 640] S1x128
  slices_S1024x2048_o0_768_S1024x128 : S1024x2048.Slices ![0, 768] S1024x128
  slices_S1x2048_o0_768_S1x128 : S1x2048.Slices ![0, 768] S1x128
  slices_S1024x2048_o0_896_S1024x128 : S1024x2048.Slices ![0, 896] S1024x128
  slices_S1x2048_o0_896_S1x128 : S1x2048.Slices ![0, 896] S1x128
  slices_S1024x2048_o0_1024_S1024x128 : S1024x2048.Slices ![0, 1024] S1024x128
  slices_S1x2048_o0_1024_S1x128 : S1x2048.Slices ![0, 1024] S1x128
  slices_S1024x2048_o0_1152_S1024x128 : S1024x2048.Slices ![0, 1152] S1024x128
  slices_S1x2048_o0_1152_S1x128 : S1x2048.Slices ![0, 1152] S1x128
  slices_S1024x2048_o0_1280_S1024x128 : S1024x2048.Slices ![0, 1280] S1024x128
  slices_S1x2048_o0_1280_S1x128 : S1x2048.Slices ![0, 1280] S1x128
  slices_S1024x2048_o0_1408_S1024x128 : S1024x2048.Slices ![0, 1408] S1024x128
  slices_S1x2048_o0_1408_S1x128 : S1x2048.Slices ![0, 1408] S1x128
  slices_S1024x2048_o0_1536_S1024x128 : S1024x2048.Slices ![0, 1536] S1024x128
  slices_S1x2048_o0_1536_S1x128 : S1x2048.Slices ![0, 1536] S1x128
  slices_S1024x2048_o0_1664_S1024x128 : S1024x2048.Slices ![0, 1664] S1024x128
  slices_S1x2048_o0_1664_S1x128 : S1x2048.Slices ![0, 1664] S1x128
  slices_S1024x2048_o0_1792_S1024x128 : S1024x2048.Slices ![0, 1792] S1024x128
  slices_S1x2048_o0_1792_S1x128 : S1x2048.Slices ![0, 1792] S1x128
  slices_S1024x2048_o0_1920_S1024x128 : S1024x2048.Slices ![0, 1920] S1024x128
  slices_S1x2048_o0_1920_S1x128 : S1x2048.Slices ![0, 1920] S1x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x128_S1024 : S1024x128.Reduces [1] S1024
  shapeCasts_S1024_S1024x1 : S1024.ShapeCasts S1024x1
  shapeCasts_S8192x1_S8192 : S8192x1.ShapeCasts S8192
  reducesTo_S8192_S_d0 : S8192.ReducesTo [0] S_
  dot_S1024x128_S2048x128_S1024x2048_1_1_0_0_n_n_wf : DotDims.WF S1024x128 S2048x128 S1024x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v23) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x128, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S128x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S1x8192, .i1⟩
  | .hbm, ⟨47, _⟩ => ⟨S_, .f32⟩
  | .hbm, ⟨48, _⟩ => ⟨S_, .f32⟩
  | .hbm, ⟨49, _⟩ => ⟨S8192x8192, .i1⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S1x8192, .i1⟩
  | .hbm, ⟨55, _⟩ => ⟨S_, .f32⟩
  | .hbm, ⟨56, _⟩ => ⟨S_, .f32⟩
  | .hbm, ⟨57, _⟩ => ⟨S8192x8192, .i1⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  bcast_S_S8192 : S_.BroadcastsInDim S8192 (![] : Fin 0 → Fin S8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  Batch-hard triplet loss over B = 8192 anchors and candidates of dimension D = 128, read at the extended reals.
  Two closed forms of one loss, each a function of the embeddings `e1 e2 : row → coordinate → EReal` and the
  integer labels `tgt`:

  * the MINED form: the squared distance |e1_i − e2_j + ε|² is split as (cross term c_ij) + (column term ct_j)
    + (row term rc_i); the column term is fused with the class masks into two bias rows (−∞ off the positive class,
    +∞ off the negative class); the running maximum / minimum over candidates j is taken of `c_ij + bias_j` in
    squared-distance space, and the row term, the clamp at 0 and the square root are applied ONCE per anchor;
  * the DIRECT form: the full distance matrix `dist_ij = √max(sq_ij, 0)` is formed first and the masked
    maximum / minimum over j is taken of the distances.

  Both end in the same weighted mean over the anchors of the positive class. They agree on finite embeddings
  (the bridge module): `√max(·, 0)` is monotone and so commutes with a maximum or a minimum over candidates, a
  finite row term commutes with them too, and the three-way split is a ring identity over the reals. On an anchor
  outside the positive class the two forms may differ (with no positive candidate the mined form clamps −∞ to 0
  before the root where the direct form keeps −∞), but its weight is 0.
-/
import Idealize.ShloMosaic.PureOps.Ideal
import Idealize.ShloMosaic.Lib.ValueIdx
import Mathlib.Order.CompleteLattice.Finset
import Mathlib.Algebra.BigOperators.Group.Finset.Basic

noncomputable section

namespace Cert.Triplet

open Idealize.ShloMosaic

/-- Embeddings: 8192 rows of 128 coordinates. -/
abbrev Emb := Fin 8192 → Fin 128 → EReal
/-- Class labels, one per row (the same array labels anchors and candidates). -/
abbrev Lab := Fin 8192 → BitVec 32

/-- `2ε` as both programs spell it: the f32 nearest 2e-6. -/
def twoEps : EReal := Ideal.ofBits .f32 0x360637BD#32
/-- `Dε²` as both programs spell it: the f32 nearest 1.28e-10. -/
def dEps2 : EReal := Ideal.ofBits .f32 0x2F0CBCCC#32
/-- The margin, the f32 nearest 0.2. -/
def margin : EReal := Ideal.ofBits .f32 0x3E4CCCCD#32
/-- `-2` (exact). -/
def negTwo : EReal := Ideal.ofBits .f32 0xC0000000#32
/-- `2` (exact). -/
def two : EReal := Ideal.ofBits .f32 0x40000000#32

variable (e1 e2 : Emb) (tgt : Lab)

/-- Row sum of squares and row sum. -/
def sqSum (e : Emb) (i : Fin 8192) : EReal := ∑ k : Fin 128, e i k * e i k
def rowSum (e : Emb) (i : Fin 8192) : EReal := ∑ k : Fin 128, e i k

/-- Anchor weight: 1 on the positive class, else 0. -/
def wt (j : Fin 8192) : EReal := if tgt j = 1#32 then 1 else 0

/-! ## The mined form -/

/-- Cross term `e1_i · (−2·e2_j)`. -/
def cross (i j : Fin 8192) : EReal := ∑ k : Fin 128, e1 i k * (negTwo * e2 j k)
/-- Column term `|e2_j|² − 2ε·Σe2_j`. -/
def colTerm (j : Fin 8192) : EReal := sqSum e2 j - twoEps * rowSum e2 j
/-- Row term `|e1_i|² + 2ε·Σe1_i + Dε²`. -/
def rowTerm (i : Fin 8192) : EReal := (sqSum e1 i + twoEps * rowSum e1 i) + dEps2
/-- The column term on the positive class, −∞ elsewhere; on the negative class, +∞ elsewhere. -/
def posBias (j : Fin 8192) : EReal := if tgt j = 1#32 then colTerm e2 j else ⊥
def negBias (j : Fin 8192) : EReal := if tgt j = 0#32 then colTerm e2 j else ⊤
/-- Hardest positive / negative in squared-distance space, before the row term. -/
def minedPos (i : Fin 8192) : EReal := Finset.univ.sup fun j : Fin 8192 => cross e1 e2 i j + posBias e2 tgt j
def minedNeg (i : Fin 8192) : EReal := Finset.univ.inf fun j : Fin 8192 => cross e1 e2 i j + negBias e2 tgt j
/-- Per-anchor hinge. -/
def minedHinge (i : Fin 8192) : EReal :=
  max ((Ideal.sqrt (max (minedPos e1 e2 tgt i + rowTerm e1 i) 0)
        - Ideal.sqrt (max (minedNeg e1 e2 tgt i + rowTerm e1 i) 0)) + margin) 0
/-- The loss: weighted mean of the hinge over the positive-class anchors. -/
def minedLoss : EReal :=
  Ideal.div (∑ i : Fin 8192, minedHinge e1 e2 tgt i * wt tgt i) (∑ i : Fin 8192, wt tgt i)

/-! ## The direct form -/

/-- Plain inner product `e1_i · e2_j`. -/
def inner (i j : Fin 8192) : EReal := ∑ k : Fin 128, e1 i k * e2 j k
/-- Squared distance `|e1_i − e2_j + ε|²`, expanded. -/
def sqDist (i j : Fin 8192) : EReal :=
  ((((sqSum e1 i + sqSum e2 j) - two * inner e1 e2 i j) + twoEps * (rowSum e1 i - rowSum e2 j)) + dEps2)
def dist (i j : Fin 8192) : EReal := Ideal.sqrt (max (sqDist e1 e2 i j) 0)
def directPos (i : Fin 8192) : EReal := Finset.univ.sup fun j : Fin 8192 => if tgt j = 1#32 then dist e1 e2 i j else ⊥
def directNeg (i : Fin 8192) : EReal := Finset.univ.inf fun j : Fin 8192 => if tgt j = 0#32 then dist e1 e2 i j else ⊤
def directHinge (i : Fin 8192) : EReal := max ((directPos e1 e2 tgt i - directNeg e1 e2 tgt i) + margin) 0
def directLoss : EReal :=
  Ideal.div (∑ i : Fin 8192, directHinge e1 e2 tgt i * wt tgt i) (∑ i : Fin 8192, wt tgt i)

/-- An [8192, 128] array read as rows of coordinates, and an [8192] integer array as labels. -/
def rows (x : (⟨2, ![8192, 128]⟩ : Shape).Idx → EReal) : Emb := fun i k => x (ValueIdx.ix2 i k)
def labs (y : (⟨1, ![8192]⟩ : Shape).Idx → BitVec 32) : Lab := fun j => y (ValueIdx.ix1 j)

/-- Every coordinate is a real number. -/
def Finite (e : Emb) : Prop := ∀ i k, ∃ r : ℝ, e i k = (r : EReal)

end Cert.Triplet

end
-- ==== Proof.Bridge.lean ====
/-
  The mined form of the batch-hard triplet loss equals the direct form on finite embeddings.

  Road. Both losses are one quotient with the same denominator, so it is enough that the weighted hinges agree anchor by
  anchor. Off the positive class the weight is 0. On it: the three-way split (cross + column + row term) is the squared
  distance, a ring identity over the reals; a real row term added commutes with a maximum or a minimum over candidates;
  the clamped root x ↦ √max(x, 0) is monotone, so it commutes with the minimum (it fixes +∞) and, because the anchor
  itself is a positive candidate, with the masked maximum as well.
-/
import proofs.«420582_j30227979829905_3_alg».proof.Proof.Spec
import Mathlib.Data.EReal.Operations
import Mathlib.Data.Finset.Lattice.Fold

noncomputable section

namespace Cert.Triplet

open Idealize.ShloMosaic

/-! ## The constants are real numbers -/

theorem twoEps_coe : ∃ r : ℝ, twoEps = (r : EReal) := by
  simp [twoEps, Ideal.ofBits, Ideal.ieee, -EReal.coe_mul]

theorem dEps2_coe : ∃ r : ℝ, dEps2 = (r : EReal) := by
  simp [dEps2, Ideal.ofBits, Ideal.ieee, -EReal.coe_mul]

theorem negTwo_eq : negTwo = ((-2 : ℝ) : EReal) := by
  simp [negTwo, Ideal.ofBits, Ideal.ieee, -EReal.coe_mul]; norm_num

theorem two_eq : two = ((2 : ℝ) : EReal) := by
  simp [two, Ideal.ofBits, Ideal.ieee, -EReal.coe_mul]; norm_num

/-! ## Sums of reals inside the extended reals -/

/-- The inclusion of the reals carries a finite sum to the sum of the images. -/
theorem coe_finsum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section RealData

variable {e1 e2 : Emb} {f1 f2 : Fin 8192 → Fin 128 → ℝ}

theorem sqSum_coe {e : Emb} {f : Fin 8192 → Fin 128 → ℝ} (hf : ∀ i k, e i k = (f i k : EReal)) (i : Fin 8192) :
    sqSum e i = ((∑ k, f i k * f i k : ℝ) : EReal) := by
  rw [sqSum, coe_finsum]
  exact Finset.sum_congr rfl fun k _ => by rw [hf, EReal.coe_mul]

theorem rowSum_coe {e : Emb} {f : Fin 8192 → Fin 128 → ℝ} (hf : ∀ i k, e i k = (f i k : EReal)) (i : Fin 8192) :
    rowSum e i = ((∑ k, f i k : ℝ) : EReal) := by
  rw [rowSum, coe_finsum]
  exact Finset.sum_congr rfl fun k _ => hf i k

theorem cross_coe (hf1 : ∀ i k, e1 i k = (f1 i k : EReal)) (hf2 : ∀ i k, e2 i k = (f2 i k : EReal))
    (i j : Fin 8192) : cross e1 e2 i j = ((∑ k, f1 i k * (-2 * f2 j k) : ℝ) : EReal) := by
  rw [cross, coe_finsum]
  exact Finset.sum_congr rfl fun k _ => by rw [hf1, hf2, negTwo_eq, EReal.coe_mul, EReal.coe_mul]

theorem inner_coe (hf1 : ∀ i k, e1 i k = (f1 i k : EReal)) (hf2 : ∀ i k, e2 i k = (f2 i k : EReal))
    (i j : Fin 8192) : inner e1 e2 i j = ((∑ k, f1 i k * f2 j k : ℝ) : EReal) := by
  rw [inner, coe_finsum]
  exact Finset.sum_congr rfl fun k _ => by rw [hf1, hf2, EReal.coe_mul]

/-- The row term is a real number. -/
theorem rowTerm_coe (hf1 : ∀ i k, e1 i k = (f1 i k : EReal)) (i : Fin 8192) :
    ∃ R : ℝ, rowTerm e1 i = (R : EReal) := by
  obtain ⟨te, hte⟩ := twoEps_coe
  obtain ⟨de, hde⟩ := dEps2_coe
  refine ⟨(∑ k, f1 i k * f1 i k + te * ∑ k, f1 i k) + de, ?_⟩
  rw [rowTerm, sqSum_coe hf1, rowSum_coe hf1, hte, hde]
  simp only [← EReal.coe_mul, ← EReal.coe_add]

/-- The three-way split of the squared distance: a ring identity over the reals. -/
theorem split_eq_sqDist (hf1 : ∀ i k, e1 i k = (f1 i k : EReal)) (hf2 : ∀ i k, e2 i k = (f2 i k : EReal))
    (i j : Fin 8192) : (cross e1 e2 i j + colTerm e2 j) + rowTerm e1 i = sqDist e1 e2 i j := by
  obtain ⟨te, hte⟩ := twoEps_coe
  obtain ⟨de, hde⟩ := dEps2_coe
  have hc : ∑ k, f1 i k * (-2 * f2 j k) = -2 * ∑ k, f1 i k * f2 j k := by
    rw [Finset.mul_sum]; exact Finset.sum_congr rfl fun k _ => by ring
  rw [colTerm, rowTerm, sqDist, cross_coe hf1 hf2, inner_coe hf1 hf2, sqSum_coe hf1, sqSum_coe hf2,
    rowSum_coe hf1, rowSum_coe hf2, hte, hde, two_eq]
  simp only [← EReal.coe_mul, ← EReal.coe_add, ← EReal.coe_sub]
  rw [EReal.coe_eq_coe_iff, hc]
  ring

end RealData

/-! ## Order lemmas on the extended reals -/

/-- The root is monotone on the extended reals (below 0 it is −∞). -/
theorem sqrt_mono : Monotone Ideal.sqrt := by
  intro x y hxy
  induction x using EReal.rec with
  | bot => rw [Ideal.sqrt_bot]; exact bot_le
  | top => rw [top_le_iff] at hxy; rw [hxy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- The clamped root x ↦ √max(x, 0) is monotone. -/
theorem clampRoot_mono : Monotone fun x : EReal => Ideal.sqrt (max x 0) :=
  fun _ _ h => sqrt_mono (max_le_max h le_rfl)

/-- The clamped root commutes with a minimum over candidates: it is monotone and fixes +∞. -/
theorem clampRoot_inf {n : ℕ} (F : Fin n → EReal) :
    Ideal.sqrt (max (Finset.univ.inf F) 0) = Finset.univ.inf fun j => Ideal.sqrt (max (F j) 0) :=
  Finset.apply_inf_eq_inf_comp_of_linearOrder (fun x : EReal => Ideal.sqrt (max x 0)) clampRoot_mono
    (by simp)

/-- Adding a real commutes with a minimum over candidates. -/
theorem inf_add_coe {n : ℕ} (F : Fin n → EReal) (R : ℝ) :
    Finset.univ.inf F + (R : EReal) = Finset.univ.inf fun j => F j + (R : EReal) :=
  Finset.apply_inf_eq_inf_comp_of_linearOrder (fun x : EReal => x + (R : EReal))
    (fun _ _ h => add_le_add_left h _) (EReal.top_add_coe R)

/-- Adding a real commutes with a maximum over candidates. -/
theorem sup_add_coe {n : ℕ} (F : Fin n → EReal) (R : ℝ) :
    Finset.univ.sup F + (R : EReal) = Finset.univ.sup fun j => F j + (R : EReal) :=
  Finset.apply_sup_eq_sup_comp_of_linearOrder (fun x : EReal => x + (R : EReal))
    (fun _ _ h => add_le_add_left h _) (EReal.bot_add _)

/-- A monotone map commutes with a masked maximum (−∞ off the mask) once some candidate is in the mask:
    the maximum is attained, at a masked candidate or at −∞, and the image of −∞ lies below the image of
    the candidate in the mask. -/
theorem mono_sup_mask {n : ℕ} (g : EReal → EReal) (hg : Monotone g) (P : Fin n → Prop) [DecidablePred P]
    (F : Fin n → EReal) (i0 : Fin n) (hi0 : P i0) :
    g (Finset.univ.sup fun j => if P j then F j else ⊥)
      = Finset.univ.sup fun j => if P j then g (F j) else ⊥ := by
  have hle : ∀ j, P j → g (F j) ≤ Finset.univ.sup fun j => if P j then g (F j) else ⊥ := by
    intro j hP
    have := Finset.le_sup (f := fun j => if P j then g (F j) else ⊥) (Finset.mem_univ j)
    simpa [hP] using this
  apply le_antisymm
  · obtain ⟨j, _, hj⟩ := Finset.exists_mem_eq_sup Finset.univ ⟨i0, Finset.mem_univ _⟩
      (fun j => if P j then F j else ⊥)
    rw [hj]
    by_cases hP : P j
    · rw [if_pos hP]; exact hle j hP
    · rw [if_neg hP]; exact (hg bot_le).trans (hle i0 hi0)
  · refine Finset.sup_le fun j _ => ?_
    by_cases hP : P j
    · rw [if_pos hP]
      apply hg
      have := Finset.le_sup (f := fun j => if P j then F j else ⊥) (Finset.mem_univ j)
      simpa [hP] using this
    · rw [if_neg hP]; exact bot_le

/-! ## The two sides -/

section Sides

variable {e1 e2 : Emb} {f1 f2 : Fin 8192 → Fin 128 → ℝ}

/-- Hardest negative: the mined form's clamped root of the minimum is the minimum of the distances. -/
theorem negSide (hf1 : ∀ i k, e1 i k = (f1 i k : EReal)) (hf2 : ∀ i k, e2 i k = (f2 i k : EReal))
    (tgt : Lab) (i : Fin 8192) :
    Ideal.sqrt (max (minedNeg e1 e2 tgt i + rowTerm e1 i) 0) = directNeg e1 e2 tgt i := by
  obtain ⟨R, hR⟩ := rowTerm_coe hf1 i
  rw [minedNeg, directNeg, hR, inf_add_coe, clampRoot_inf]
  refine Finset.inf_congr rfl fun j _ => ?_
  rw [negBias, dist]
  by_cases h : tgt j = 0#32
  · rw [if_pos h, if_pos h, ← hR, split_eq_sqDist hf1 hf2]
  · rw [if_neg h, if_neg h, cross_coe hf1 hf2, EReal.coe_add_top, EReal.top_add_coe]
    simp

/-- Hardest positive, at an anchor of the positive class. -/
theorem posSide (hf1 : ∀ i k, e1 i k = (f1 i k : EReal)) (hf2 : ∀ i k, e2 i k = (f2 i k : EReal))
    (tgt : Lab) (i : Fin 8192) (hi : tgt i = 1#32) :
    Ideal.sqrt (max (minedPos e1 e2 tgt i + rowTerm e1 i) 0) = directPos e1 e2 tgt i := by
  obtain ⟨R, hR⟩ := rowTerm_coe hf1 i
  have key : minedPos e1 e2 tgt i + (R : EReal)
      = Finset.univ.sup fun j => if tgt j = 1#32 then sqDist e1 e2 i j else ⊥ := by
    rw [minedPos, sup_add_coe]
    refine Finset.sup_congr rfl fun j _ => ?_
    rw [posBias]
    by_cases h : tgt j = 1#32
    · rw [if_pos h, if_pos h, ← hR, split_eq_sqDist hf1 hf2]
    · rw [if_neg h, if_neg h, EReal.add_bot, EReal.bot_add]
  rw [hR, key, directPos]
  exact mono_sup_mask (fun x : EReal => Ideal.sqrt (max x 0)) clampRoot_mono (fun j => tgt j = 1#32)
    (fun j => sqDist e1 e2 i j) i hi

/-- The weighted hinges agree anchor by anchor. -/
theorem hinge_mul_wt (hf1 : ∀ i k, e1 i k = (f1 i k : EReal)) (hf2 : ∀ i k, e2 i k = (f2 i k : EReal))
    (tgt : Lab) (i : Fin 8192) :
    minedHinge e1 e2 tgt i * wt tgt i = directHinge e1 e2 tgt i * wt tgt i := by
  by_cases hi : tgt i = 1#32
  · rw [minedHinge, directHinge, posSide hf1 hf2 tgt i hi, negSide hf1 hf2 tgt i]
  · rw [wt, if_neg hi, mul_zero, mul_zero]

end Sides

/-- On finite embeddings the two closed forms are one loss. -/
theorem minedLoss_eq_directLoss (e1 e2 : Emb) (tgt : Lab) (h1 : Finite e1) (h2 : Finite e2) :
    minedLoss e1 e2 tgt = directLoss e1 e2 tgt := by
  choose f1 hf1 using h1
  choose f2 hf2 using h2
  rw [minedLoss, directLoss, Finset.sum_congr rfl fun i _ => hinge_mul_wt hf1 hf2 tgt i]

end Cert.Triplet

end
-- ==== Proof.FiniteInputs.lean ====
/-
  The precondition, decoded: an all-ones `finite_inputs` says every coordinate of both embedding arrays is a real number.
-/
import proofs.«420582_j30227979829905_3_alg».proof.Pre_finite_inputs
import proofs.«420582_j30227979829905_3_alg».proof.Proof.Gen.Pre_finite_inputs
import proofs.«420582_j30227979829905_3_alg».proof.Proof.Spec
import Idealize.ShloMosaic.Lib.ReduceAll

noncomputable section

namespace Cert.Triplet

open Idealize.ShloMosaic

/-- The f32 pattern `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max x (-x)` is strictly below `⊤` is a real number:
    at both infinities the maximum is `⊤` (`max ⊥ ⊤` and `max ⊤ ⊥`). -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One element of the comparison `|x| < +∞` that came out 1: `x` is a real number. The comparison is the order's,
    so a bit 1 is the strict inequality itself. -/
theorem real_of_cmp (x : EReal)
    (h : Ideal.cmp .olt (max x (-x)) (Ideal.ofBits .f32 0x7F800000#32) = 1#1) : ∃ r : ℝ, x = (r : EReal) := by
  rw [ofBits_posInf] at h
  refine real_of_abs_lt_top x ?_
  by_contra hn
  simp [Ideal.cmp, hn] at h

/-- If the printed precondition is all ones at the extended reals, both embedding arrays are finite. -/
theorem finite_of_pre [Cert.Pre_finite_inputs.Facts]
    (a0 a1 : FVec Ideal Cert.Pre_finite_inputs.S8192x128 .f32) (a2 : IVec Cert.Pre_finite_inputs.S8192 32)
    (h : Cert.Pre_finite_inputs.fn (F := Ideal) a0 a1 a2 = fun _ => 1#1) :
    Finite (rows a0) ∧ Finite (rows a1) := by
  -- the scalar shape has one index, so each reduce over both axes is a conjunction over every element
  haveI : Subsingleton Cert.Pre_finite_inputs.S_.Idx := ⟨fun a b => funext fun d => d.elim0⟩
  have e := congrFun h ValueIdx.ix0
  dsimp only [Cert.Pre_finite_inputs.fn] at e
  obtain ⟨e0, e1⟩ := IntOp.andi_eq_one.1 e
  refine ⟨fun i k => ?_, fun i k => ?_⟩
  · exact real_of_cmp _ (Host.reduce_andi_all _ _ _ _ _ e0 (ValueIdx.ix2 i k))
  · exact real_of_cmp _ (Host.reduce_andi_all _ _ _ _ _ e1 (ValueIdx.ix2 i k))

end Cert.Triplet

end
-- ==== Proof.RefValue.lean ====
/-
  The reference program's result, read at the extended reals, is the DIRECT form of the batch-hard triplet loss:
  the full squared-distance matrix, its clamped square root, the masked maximum and minimum over candidates, the
  hinge, and the weighted mean over positive-class anchors.
-/
import proofs.«420582_j30227979829905_3_alg».proof.Defs
import proofs.«420582_j30227979829905_3_alg».proof.Proof.Gen.ReferenceIdeal.Run
import proofs.«420582_j30227979829905_3_alg».proof.Proof.Gen.ReferenceIdeal.Read
import proofs.«420582_j30227979829905_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## Words and folds -/

/-- The f32 word `0xFF800000` denotes −∞ … -/
theorem ofBits_negInf : Ideal.ofBits .f32 0xFF800000#32 = (⊥ : EReal) := by simp [Ideal.ofBits, Ideal.ieee]
/-- … and `0x7F800000` denotes +∞. -/
theorem ofBits_posInf : Ideal.ofBits .f32 0x7F800000#32 = (⊤ : EReal) := by simp [Ideal.ofBits, Ideal.ieee]

/-- A fold of `max` from −∞ is the supremum … -/
theorem fold_max_bot {ι : Type} (s : Finset ι) (f : ι → EReal) : s.fold max ⊥ f = s.sup f := rfl
/-- … and a fold of `min` from +∞ the infimum. -/
theorem fold_min_top {ι : Type} (s : Finset ι) (f : ι → EReal) : s.fold min ⊤ f = s.inf f := rfl

/-- An integer equality test is the bit 1 exactly when the two words are equal. -/
theorem cmpi_eq_ite (a b : BitVec 32) : IntOp.cmpi .eq a b = if a = b then 1#1 else 0#1 := by
  unfold IntOp.cmpi
  by_cases h : a = b
  · simp [h]
  · have hb : (a == b) = false := by simpa using h
    simp [h, hb]

/-- A select on an equality test is the `if` on the equality. -/
theorem select_cmpi_eq {α : Type} (a b : BitVec 32) (u v : α) :
    Scalar.select (IntOp.cmpi .eq a b) u v = if a = b then u else v := by
  rw [cmpi_eq_ite]
  by_cases h : a = b
  · rw [if_pos h, if_pos h, select_one]
  · rw [if_neg h, if_neg h, select_zero]

/-- A bit converted to a float is 1 or 0. -/
theorem uitofp_bit (b : BitVec 1) : (FloatOps.uitofp (F := Ideal) .f32 b : EReal) = if b = 1#1 then 1 else 0 := by
  rcases BitVec.eq_zero_or_eq_one b with h | h <;> subst h
  · show (((0#1 : BitVec 1).toNat : ℝ) : EReal) = _
    simp
  · show (((1#1 : BitVec 1).toNat : ℝ) : EReal) = _
    simp

/-- A sum over the indices of a rank-1 shape is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

/-- Result row `i` of a reduction over axis 1 of a square array, with column `k` put back, is entry (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  match c with
  | ⟨0, _⟩ => rfl
  | ⟨1, _⟩ => rfl

/-- A maximum-reduce over axis 1 of a square array, at row `i`, is the fold of `max` from the initial value over the row. -/
theorem reduce_max_row (y : S8192x8192.Idx → EReal) (init : S_.Idx → EReal) (i : Fin 8192) :
    Host.reduce (FloatOps.maximumf (F := Ideal) (φ := .f32)) y init reducesTo_S8192x8192_S8192_d1 h_S_ (ix1 i)
      = (Finset.univ : Finset (Fin 8192)).fold max (init (Shape.Idx.first h_S_)) (fun k => y (ix2 i k)) := by
  have h : S8192x8192.Reduces [1] S8192 := by decide
  have e := Host.reduce_eq_fold_single (FloatOps.maximumf (F := Ideal) (φ := .f32)) y init reducesTo_S8192x8192_S8192_d1 h h_S_ (ix1 i)
  refine e.trans ?_
  have hf : (y ∘ h.lift (ix1 i)) = fun k : Fin 8192 => y (ix2 i k) := funext fun k => congrArg y (lift_row h i k)
  exact congrArg (fun f => Finset.fold max (init (Shape.Idx.first h_S_)) f (Finset.univ : Finset (Fin 8192))) hf

/-- A minimum-reduce likewise is the fold of `min`. -/
theorem reduce_min_row (y : S8192x8192.Idx → EReal) (init : S_.Idx → EReal) (i : Fin 8192) :
    Host.reduce (FloatOps.minimumf (F := Ideal) (φ := .f32)) y init reducesTo_S8192x8192_S8192_d1 h_S_ (ix1 i)
      = (Finset.univ : Finset (Fin 8192)).fold min (init (Shape.Idx.first h_S_)) (fun k => y (ix2 i k)) := by
  have h : S8192x8192.Reduces [1] S8192 := by decide
  have e := Host.reduce_eq_fold_single (FloatOps.minimumf (F := Ideal) (φ := .f32)) y init reducesTo_S8192x8192_S8192_d1 h h_S_ (ix1 i)
  refine e.trans ?_
  have hf : (y ∘ h.lift (ix1 i)) = fun k : Fin 8192 => y (ix2 i k) := funext fun k => congrArg y (lift_row h i k)
  exact congrArg (fun f => Finset.fold min (init (Shape.Idx.first h_S_)) f (Finset.univ : Finset (Fin 8192))) hf

section Stages

variable (x0 x1 : (⟨S8192x128, .f32⟩ : BufTy).Contents (Elt Ideal)) (x2 : (⟨S8192, .i32⟩ : BufTy).Contents (Elt Ideal))

/-! ## The squared distance at (i, j) -/

/-- |e1_i|², broadcast along the columns. -/
theorem sqSum0_at (i j : Fin 8192) :
    val_main_v6 (F := Ideal) x0 (ix2 i j) = Cert.Triplet.sqSum (Cert.Triplet.rows x0) i := by
  rw [val_main_v6_apply, val_main_v2_apply, val_main_v1_apply, val_main_cst_apply]
  simp only [val_main_v0_apply, Ideal.ofBits_def, Ideal.ofBits_zero_f32, zero_add, Ideal.mulf_def]
  refine Finset.sum_congr rfl fun k _ => ?_
  have e : idx_main_v1 (idx_main_v2 (idx_main_v6 (ix2 i j))) k = ix2 i k :=
    funext fun a => Fin.ext (by match a with | ⟨0, _⟩ => rfl | ⟨1, _⟩ => rfl)
  rw [e]; rfl

/-- |e2_j|², broadcast along the rows. -/
theorem sqSum1_at (i j : Fin 8192) :
    val_main_v7 (F := Ideal) x1 (ix2 i j) = Cert.Triplet.sqSum (Cert.Triplet.rows x1) j := by
  rw [val_main_v7_apply, val_main_v5_apply, val_main_v4_apply, val_main_cst_0_apply]
  simp only [val_main_v3_apply, Ideal.ofBits_def, Ideal.ofBits_zero_f32, zero_add, Ideal.mulf_def]
  refine Finset.sum_congr rfl fun k _ => ?_
  have e : idx_main_v4 (idx_main_v5 (idx_main_v7 (ix2 i j))) k = ix2 j k :=
    funext fun a => Fin.ext (by match a with | ⟨0, _⟩ => rfl | ⟨1, _⟩ => rfl)
  rw [e]; rfl

/-- The inner product e1_i · e2_j. -/
theorem inner_at (i j : Fin 8192) :
    val_main_v10 (F := Ideal) x0 x1 (ix2 i j) = Cert.Triplet.inner (Cert.Triplet.rows x0) (Cert.Triplet.rows x1) i j := by
  rw [val_main_v10_apply]
  refine Finset.sum_congr rfl fun k _ => ?_
  rw [val_main_v9_apply]
  have el : lidx_main_v10 (ix2 i j) k = ix2 i k :=
    funext fun a => Fin.ext (by match a with | ⟨0, _⟩ => rfl | ⟨1, _⟩ => rfl)
  have er : idx_main_v9 (ridx_main_v10 (ix2 i j) k) = ix2 j k :=
    funext fun a => Fin.ext (by match a with | ⟨0, _⟩ => rfl | ⟨1, _⟩ => rfl)
  rw [el, er]; rfl

/-- Σ e1_i, broadcast along the columns. -/
theorem rowSum0_at (i j : Fin 8192) :
    val_main_v18 (F := Ideal) x0 (ix2 i j) = Cert.Triplet.rowSum (Cert.Triplet.rows x0) i := by
  rw [val_main_v18_apply, val_main_v15_apply, val_main_v14_apply, val_main_cst_2_apply]
  simp only [Ideal.ofBits_def, Ideal.ofBits_zero_f32, zero_add]
  refine Finset.sum_congr rfl fun k _ => ?_
  have e : idx_main_v14 (idx_main_v15 (idx_main_v18 (ix2 i j))) k = ix2 i k :=
    funext fun a => Fin.ext (by match a with | ⟨0, _⟩ => rfl | ⟨1, _⟩ => rfl)
  rw [e]; rfl

/-- Σ e2_j, broadcast along the rows. -/
theorem rowSum1_at (i j : Fin 8192) :
    val_main_v19 (F := Ideal) x1 (ix2 i j) = Cert.Triplet.rowSum (Cert.Triplet.rows x1) j := by
  rw [val_main_v19_apply, val_main_v17_apply, val_main_v16_apply, val_main_cst_3_apply]
  simp only [Ideal.ofBits_def, Ideal.ofBits_zero_f32, zero_add]
  refine Finset.sum_congr rfl fun k _ => ?_
  have e : idx_main_v16 (idx_main_v17 (idx_main_v19 (ix2 i j))) k = ix2 j k :=
    funext fun a => Fin.ext (by match a with | ⟨0, _⟩ => rfl | ⟨1, _⟩ => rfl)
  rw [e]; rfl

/-- The expanded squared distance, in the program's own order of operations. -/
theorem sqDist_at (i j : Fin 8192) :
    val_main_v25 (F := Ideal) x0 x1 (ix2 i j) = Cert.Triplet.sqDist (Cert.Triplet.rows x0) (Cert.Triplet.rows x1) i j := by
  rw [val_main_v25_apply, val_main_v23_apply, val_main_v13_apply, val_main_v8_apply, val_main_v12_apply,
    val_main_v22_apply, val_main_v20_apply, val_main_v24_apply, val_main_v21_apply, val_main_v11_apply,
    val_main_cst_5_apply, val_main_cst_4_apply, val_main_cst_1_apply,
    sqSum0_at, sqSum1_at, inner_at, rowSum0_at, rowSum1_at]
  simp only [Ideal.ofBits_def, Ideal.addf_def, Ideal.subf_def, Ideal.mulf_def]
  rfl

/-- The distance: the clamped square root. -/
theorem dist_at (i j : Fin 8192) :
    val_main_v28 (F := Ideal) x0 x1 (ix2 i j) = Cert.Triplet.dist (Cert.Triplet.rows x0) (Cert.Triplet.rows x1) i j := by
  rw [val_main_v28_apply, val_main_v27_apply, val_main_v26_apply, val_main_cst_6_apply, sqDist_at]
  simp only [Ideal.ofBits_def, Ideal.ofBits_zero_f32, Ideal.maximumf_def, Ideal.hostUnary_sqrt_def]
  rfl

/-! ## The masked distances and their extrema over the candidates -/

/-- The distance on the positive class, −∞ elsewhere. -/
theorem posMasked_at (i j : Fin 8192) :
    val_main_v34 (F := Ideal) x0 x1 x2 (ix2 i j)
      = if Cert.Triplet.labs x2 j = 1#32 then Cert.Triplet.dist (Cert.Triplet.rows x0) (Cert.Triplet.rows x1) i j else ⊥ := by
  rw [val_main_v34_apply, val_main_call0_v1_apply, val_main_v33_apply, val_main_v30_apply, val_main_v29_apply, val_main_c_apply,
    val_main_call0_v2_apply, val_main_call0_v0_apply, val_main_cst_8_apply, dist_at, select_cmpi_eq]
  have e : idx_main_v33 (idx_main_call0_v1 (ix2 i j)) = ix1 j :=
    funext fun a => Fin.ext (by match a with | ⟨0, _⟩ => rfl)
  rw [e, Ideal.ofBits_def, ofBits_negInf]
  rfl

/-- The distance on the negative class, +∞ elsewhere. -/
theorem negMasked_at (i j : Fin 8192) :
    val_main_v37 (F := Ideal) x0 x1 x2 (ix2 i j)
      = if Cert.Triplet.labs x2 j = 0#32 then Cert.Triplet.dist (Cert.Triplet.rows x0) (Cert.Triplet.rows x1) i j else ⊤ := by
  rw [val_main_v37_apply, val_main_call1_v1_apply, val_main_v36_apply, val_main_v32_apply, val_main_v31_apply, val_main_c_7_apply,
    val_main_call1_v2_apply, val_main_call1_v0_apply, val_main_cst_10_apply, dist_at, select_cmpi_eq]
  have e : idx_main_v36 (idx_main_call1_v1 (ix2 i j)) = ix1 j :=
    funext fun a => Fin.ext (by match a with | ⟨0, _⟩ => rfl)
  rw [e, Ideal.ofBits_def, ofBits_posInf]
  rfl

/-- The hardest positive: the maximum over the candidates of the masked distances. -/
theorem directPos_at (i : Fin 8192) :
    val_main_v35 (F := Ideal) x0 x1 x2 (ix1 i)
      = Cert.Triplet.directPos (Cert.Triplet.rows x0) (Cert.Triplet.rows x1) (Cert.Triplet.labs x2) i := by
  unfold val_main_v35
  have hy : ∀ j : Fin 8192, val_main_v34 (F := Ideal) x0 x1 x2 (ix2 i j)
      = if Cert.Triplet.labs x2 j = 1#32 then Cert.Triplet.dist (Cert.Triplet.rows x0) (Cert.Triplet.rows x1) i j else ⊥ :=
    fun j => posMasked_at x0 x1 x2 i j
  generalize val_main_v34 (F := Ideal) x0 x1 x2 = y at hy
  refine (reduce_max_row y _ i).trans ?_
  rw [val_main_cst_9_apply, Ideal.ofBits_def, ofBits_negInf]
  have hf : (fun k : Fin 8192 => y (ix2 i k))
      = fun j : Fin 8192 => if Cert.Triplet.labs x2 j = 1#32 then Cert.Triplet.dist (Cert.Triplet.rows x0) (Cert.Triplet.rows x1) i j else ⊥ :=
    funext hy
  rw [hf]
  exact fold_max_bot _ _

/-- The hardest negative: the minimum over the candidates of the masked distances. -/
theorem directNeg_at (i : Fin 8192) :
    val_main_v38 (F := Ideal) x0 x1 x2 (ix1 i)
      = Cert.Triplet.directNeg (Cert.Triplet.rows x0) (Cert.Triplet.rows x1) (Cert.Triplet.labs x2) i := by
  unfold val_main_v38
  have hy : ∀ j : Fin 8192, val_main_v37 (F := Ideal) x0 x1 x2 (ix2 i j)
      = if Cert.Triplet.labs x2 j = 0#32 then Cert.Triplet.dist (Cert.Triplet.rows x0) (Cert.Triplet.rows x1) i j else ⊤ :=
    fun j => negMasked_at x0 x1 x2 i j
  generalize val_main_v37 (F := Ideal) x0 x1 x2 = y at hy
  refine (reduce_min_row y _ i).trans ?_
  rw [val_main_cst_11_apply, Ideal.ofBits_def, ofBits_posInf]
  have hf : (fun k : Fin 8192 => y (ix2 i k))
      = fun j : Fin 8192 => if Cert.Triplet.labs x2 j = 0#32 then Cert.Triplet.dist (Cert.Triplet.rows x0) (Cert.Triplet.rows x1) i j else ⊤ :=
    funext hy
  rw [hf]
  exact fold_min_top _ _

/-! ## The hinge, the weights and the mean -/

/-- The anchor weight: 1 on the positive class, else 0. -/
theorem wt_at (i : Fin 8192) : val_main_v44 (F := Ideal) x2 (ix1 i) = Cert.Triplet.wt (Cert.Triplet.labs x2) i := by
  rw [val_main_v44_apply, val_main_v30_apply, val_main_v29_apply, val_main_c_apply, uitofp_bit, cmpi_eq_ite]
  unfold Cert.Triplet.wt Cert.Triplet.labs
  by_cases h : x2 (ix1 i) = 1#32
  · rw [if_pos h, if_pos rfl, if_pos h]
  · rw [if_neg h, if_neg (by decide), if_neg h]

/-- The per-anchor hinge. -/
theorem hinge_at (i : Fin 8192) :
    val_main_v43 (F := Ideal) x0 x1 x2 (ix1 i)
      = Cert.Triplet.directHinge (Cert.Triplet.rows x0) (Cert.Triplet.rows x1) (Cert.Triplet.labs x2) i := by
  rw [val_main_v43_apply, val_main_v41_apply, val_main_v39_apply, val_main_v42_apply, val_main_v40_apply,
    val_main_cst_13_apply, val_main_cst_12_apply, directPos_at, directNeg_at]
  simp only [Ideal.ofBits_def, Ideal.ofBits_zero_f32, Ideal.addf_def, Ideal.subf_def, Ideal.maximumf_def]
  rfl

end Stages

/-- The reference's result term, as a function of the three argument arrays, is the direct form of the loss. -/
theorem val_eq_directLoss (x0 x1 : (⟨S8192x128, .f32⟩ : BufTy).Contents (Elt Ideal)) (x2 : (⟨S8192, .i32⟩ : BufTy).Contents (Elt Ideal)) :
    val_main_v48 (F := Ideal) x0 x1 x2
      = fun _ => Cert.Triplet.directLoss (Cert.Triplet.rows x0) (Cert.Triplet.rows x1) (Cert.Triplet.labs x2) := by
  funext i
  rw [val_main_v48_apply, val_main_v46_apply, val_main_v47_apply, val_main_cst_14_apply, val_main_cst_15_apply,
    Ideal.hostDivf_def, Ideal.ofBits_def, Ideal.ofBits_zero_f32, zero_add, zero_add, sum_idx1, sum_idx1]
  unfold Cert.Triplet.directLoss
  refine congrArg₂ Ideal.div (Finset.sum_congr rfl fun j _ => ?_) (Finset.sum_congr rfl fun j _ => ?_)
  · rw [val_main_v45_apply, hinge_at, wt_at, Ideal.mulf_def]
  · exact wt_at x2 j

end Cert.ReferenceIdeal.RefValue

end
-- ==== Proof.KBlocks.lean ====
/-
  The arrays the region finds, read at one element at the extended reals. The host operations before the launch
  compute, from the three arguments: the anchors unchanged (a change of float format is the identity), the candidates
  scaled by −2, the two bias rows (the column term on a class, ∓∞ off it), and the row-term column; each window's
  block at a grid point is a rectangle of one of these. Also the positive-class mask as a 0/1 weight.
-/
import proofs.«420582_j30227979829905_3_alg».proof.Proof.Gen.KernelIdeal.Frame
import proofs.«420582_j30227979829905_3_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Mined

open Cert.KernelIdeal Cert.KernelIdeal.Gen Cert.Triplet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The three argument arrays of core `c`, as rows of coordinates and as labels. -/
abbrev E1 (c : Dev nD) : Emb := rows (m ((c : Thread nD τ).loc main_arg0))
abbrev E2 (c : Dev nD) : Emb := rows (m ((c : Thread nD τ).loc main_arg1))
abbrev TG (c : Dev nD) : Lab := labs (m ((c : Thread nD τ).loc main_arg2))

/-- The five input blocks at grid point `t`, each at its literal type. -/
abbrev blkE1 (c : Dev nD) (t : Fin cfg0.N) : Vec Ideal S1024x128 .bf16 := iblk m c 0 t
abbrev blkE2 (c : Dev nD) (t : Fin cfg0.N) : Vec Ideal S8192x128 .bf16 := iblk m c 1 t
abbrev blkPos (c : Dev nD) (t : Fin cfg0.N) : Vec Ideal S1x2048 .f32 := iblk m c 2 t
abbrev blkNeg (c : Dev nD) (t : Fin cfg0.N) : Vec Ideal S1x2048 .f32 := iblk m c 3 t
abbrev blkRow (c : Dev nD) (t : Fin cfg0.N) : Vec Ideal S1024x1 .f32 := iblk m c 4 t

/-! ## The host's arrays as terms of the arguments -/

/-- The three argument arrays of core `c` at their literal vector types. -/
abbrev blk_A0 (c : Dev nD) : FVec Ideal S8192x128 .f32 := m ((c : Thread nD τ).loc main_arg0)
abbrev blk_A1 (c : Dev nD) : FVec Ideal S8192x128 .f32 := m ((c : Thread nD τ).loc main_arg1)
abbrev blk_A2 (c : Dev nD) : IVec S8192 32 := m ((c : Thread nD τ).loc main_arg2)

/-- Row sums of squares and row sums of an [8192, 128] array, as the host computes them: a sum over axis 1 from 0. -/
def blk_sqSumVec (x : FVec Ideal S8192x128 .f32) : FVec Ideal S8192 .f32 :=
  Host.reduceAdd (mulf x x) (constant (F := Ideal) S_ .f32 0x00000000#32) reducesTo_S8192x128_S8192_d1 h_S_
def blk_rowSumVec (x : FVec Ideal S8192x128 .f32) : FVec Ideal S8192 .f32 :=
  Host.reduceAdd x (constant (F := Ideal) S_ .f32 0x00000000#32) reducesTo_S8192x128_S8192_d1 h_S_
/-- The column term `|x_j|² − 2ε·Σx_j` as a vector over the rows. -/
def blk_colVec (x : FVec Ideal S8192x128 .f32) : FVec Ideal S8192 .f32 :=
  subf (blk_sqSumVec x) (mulf (broadcastInDim S8192 ![] bcast_S_S8192 (constant (F := Ideal) S_ .f32 0x360637BD#32)) (blk_rowSumVec x))
/-- The row term `(|x_i|² + 2ε·Σx_i) + Dε²` as a vector over the rows. -/
def blk_rowVec (x : FVec Ideal S8192x128 .f32) : FVec Ideal S8192 .f32 :=
  addf (addf (blk_sqSumVec x) (mulf (broadcastInDim S8192 ![] bcast_S_S8192 (constant (F := Ideal) S_ .f32 0x360637BD#32)) (blk_rowSumVec x)))
    (broadcastInDim S8192 ![] bcast_S_S8192 (constant (F := Ideal) S_ .f32 0x2F0CBCCC#32))
/-- The class mask `label = w`, one bit per row. -/
def blk_maskVec (w : BitVec 32) (y : IVec S8192 32) : IVec S8192 1 :=
  cmpi .eq y (broadcastInDim S8192 ![] bcast_S_S8192 (constantI S_ 32 w))
/-- A bias vector before its reshape: the column term on the class `w`, the constant of pattern `b` off it. -/
def blk_biasVec (w : BitVec 32) (b : BitVec 32) (x : FVec Ideal S8192x128 .f32) (y : IVec S8192 32) : FVec Ideal S8192 .f32 :=
  select (blk_maskVec w y) (blk_colVec x) (broadcastInDim S8192 ![] bcast_S_S8192 (id (constant (F := Ideal) S_ .f32 b)))

/-- The contents the region finds, as the fold of the host operations before it, computed at one buffer. -/
local macro "blk_host_fold" : tactic =>
  `(tactic| (dsimp only [Gen.V, Gen.V0]
             simp only [Gen.hostOps0, Gen.hostOps0_1, Gen.hostOps0_2, Gen.hostOps0_3, Gen.hostOps0_4, List.flatten_cons, List.flatten_nil,
               List.append_nil, List.cons_append, List.nil_append]
             after_results))
local macro "blk_host_fold_simp" : tactic =>
  `(tactic| (dsimp only [Gen.V, Gen.V0]
             simp only [Gen.hostOps0, Gen.hostOps0_1, Gen.hostOps0_2, Gen.hostOps0_3, Gen.hostOps0_4, List.flatten_cons, List.flatten_nil,
               List.append_nil, List.cons_append, List.nil_append]
             after_results_simp
             simp only [StableHlo.TRef.ofBuf, StableHlo.TRef.toBuf, cast_eq]))

/-- Window 0's array: the anchors, narrowed to bf16 (the identity on extended reals). -/
theorem blk_V_anchors (c : Dev nD) :
    @Eq (FVec Ideal S8192x128 .bf16) (V m c main_v23) (truncf (F := Ideal) .bf16 (blk_A0 m c) bitsLt_bf16_f32) := by
  blk_host_fold

/-- Window 1's array: the candidates times the constant of pattern `0xC0000000`, narrowed to bf16. -/
theorem blk_V_cands (c : Dev nD) :
    @Eq (FVec Ideal S8192x128 .bf16) (V m c main_v26)
      (truncf (F := Ideal) .bf16 (mulf (broadcastInDim S8192x128 ![] bcast_S_S8192x128 (constant (F := Ideal) S_ .f32 0xC0000000#32)) (blk_A1 m c)) bitsLt_bf16_f32) := by
  blk_host_fold

/-- The positive-class mask. -/
theorem blk_V_mask (c : Dev nD) : @Eq (IVec S8192 1) (V m c main_v1) (blk_maskVec 1#32 (blk_A2 m c)) := by
  blk_host_fold <;> rfl

/-- Window 4's array: the row-term vector as a column. -/
theorem blk_V_rowTerm (c : Dev nD) :
    @Eq (FVec Ideal S8192x1 .f32) (V m c main_v12) (shapeCast S8192x1 (blk_rowVec (blk_A0 m c)) shapeCasts_S8192_S8192x1) := by
  blk_host_fold <;> rfl

/-- Window 2's array: the positive bias vector as a row. -/
theorem blk_V_posBias (c : Dev nD) :
    @Eq (FVec Ideal S1x8192 .f32) (V m c main_v20)
      (shapeCast S1x8192 (blk_biasVec 1#32 0xFF800000#32 (blk_A1 m c) (blk_A2 m c)) shapeCasts_S8192_S1x8192) := by
  blk_host_fold_simp <;> rfl

/-- Window 3's array: the negative bias vector as a row. -/
theorem blk_V_negBias (c : Dev nD) :
    @Eq (FVec Ideal S1x8192 .f32) (V m c main_v22)
      (shapeCast S1x8192 (blk_biasVec 0#32 0x7F800000#32 (blk_A1 m c) (blk_A2 m c)) shapeCasts_S8192_S1x8192) := by
  blk_host_fold_simp <;> rfl

/-! ## The terms read at an index -/

/-- The f32 patterns of the two infinities. -/
theorem blk_f32_negInf : Ideal.ofBits .f32 0xFF800000#32 = (⊥ : EReal) := by simp [Ideal.ofBits, Ideal.ieee]
theorem blk_f32_posInf : Ideal.ofBits .f32 0x7F800000#32 = (⊤ : EReal) := by simp [Ideal.ofBits, Ideal.ieee]

/-- A host sum over axis 1 from the constant 0, at row `j`: the sum of the row's 128 entries. -/
theorem blk_rowReduce_apply (y : FVec Ideal S8192x128 .f32) (j : Fin 8192) :
    Host.reduceAdd y (constant (F := Ideal) S_ .f32 0x00000000#32) reducesTo_S8192x128_S8192_d1 h_S_ (ix1 j)
      = ∑ k : Fin 128, y (ix2 j k) := by
  simp only [Host.reduceAdd, Ideal.hostReduceAdd_def]
  rw [Ideal.hostReduceAdd_single reducesTo_S8192x128_S8192_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

theorem blk_sqSumVec_apply (x : FVec Ideal S8192x128 .f32) (j : Fin 8192) : blk_sqSumVec x (ix1 j) = sqSum (rows x) j := by
  unfold blk_sqSumVec sqSum rows
  rw [blk_rowReduce_apply]
  rfl
theorem blk_rowSumVec_apply (x : FVec Ideal S8192x128 .f32) (j : Fin 8192) : blk_rowSumVec x (ix1 j) = rowSum (rows x) j := by
  unfold blk_rowSumVec rowSum rows
  rw [blk_rowReduce_apply]

/-- The column-term vector at row `j` is the column term of row `j`. -/
theorem blk_colVec_apply (x : FVec Ideal S8192x128 .f32) (j : Fin 8192) : blk_colVec x (ix1 j) = colTerm (rows x) j := by
  unfold blk_colVec colTerm twoEps
  rw [subf_apply, mulf_apply, blk_sqSumVec_apply, blk_rowSumVec_apply]
  rfl
/-- The row-term vector at row `i` is the row term of row `i`. -/
theorem blk_rowVec_apply (x : FVec Ideal S8192x128 .f32) (i : Fin 8192) : blk_rowVec x (ix1 i) = rowTerm (rows x) i := by
  unfold blk_rowVec rowTerm twoEps dEps2
  rw [addf_apply, addf_apply, mulf_apply, blk_sqSumVec_apply, blk_rowSumVec_apply]
  rfl

/-- A bias vector at row `j`: the column term where the label is `w`, else the constant. -/
theorem blk_biasVec_apply (w b : BitVec 32) (x : FVec Ideal S8192x128 .f32) (y : IVec S8192 32) (j : Fin 8192) :
    blk_biasVec w b x y (ix1 j) = if labs y j = w then colTerm (rows x) j else Ideal.ofBits .f32 b := by
  unfold blk_biasVec
  rw [select_apply, blk_colVec_apply]
  show Scalar.select (IntOp.cmpi .eq (y (ix1 j)) w) (colTerm (rows x) j) (Ideal.ofBits .f32 b) = _
  unfold labs
  by_cases h : y (ix1 j) = w
  · rw [if_pos h, IntOp.cmpi_eq.2 h, select_one]
  · rw [if_neg h, eq_zero_of_ne_one (fun e => h (IntOp.cmpi_eq.1 e)), select_zero]

/-- A reshape [8192] → [1, 8192] read at (0, q), and [8192] → [8192, 1] read at (i, 0): the vector at q, at i. -/
theorem blk_asRow_apply {α : Type} (v : S8192.Idx → α) (q : Fin 8192) :
    shapeCast S1x8192 v shapeCasts_S8192_S1x8192 (ix2 (0 : Fin 1) q) = v (ix1 q) := by
  refine shapeCast_apply v _ _ _ ?_
  rw [Shape.rowMajor_val_two, Shape.rowMajor_val_one]
  show q.val = 0 * 8192 + q.val
  omega
theorem blk_asCol_apply {α : Type} (v : S8192.Idx → α) (i : Fin 8192) :
    shapeCast S8192x1 v shapeCasts_S8192_S8192x1 (ix2 i (0 : Fin 1)) = v (ix1 i) := by
  refine shapeCast_apply v _ _ _ ?_
  rw [Shape.rowMajor_val_two, Shape.rowMajor_val_one]
  show i.val = i.val * 1 + 0
  omega

/-! ## The windows' blocks as rectangles of the arrays -/

/-- The windows' index maps over the 32 grid points: row block `t / 4` for the anchors and the row-term column, column
    tile `t % 4` for the two bias rows, the whole array for the candidates. -/
theorem blk_index_facts : ∀ t : Fin cfg0.N,
    (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = 0 ∧ win0_3.index t 1 = t.val % 4)
    ∧ (win0_4.index t 0 = t.val / 4 ∧ win0_4.index t 1 = 0) :=
  (by decide +kernel : ∀ t : Fin grid0.N, _)

theorem blk_read_E1 (c : Dev nD) (t : Fin cfg0.N) (I : Fin 8) (hI : t.val / 4 = I.val) (r : Fin 1024) (k : Fin 128) :
    blkE1 m c t (ix2 r k) = (V m c main_v23 : FVec Ideal S8192x128 .bf16) (ix2 (⟨1024 * I.val + r.val, by omega⟩ : Fin 8192) k) := by
  have hi := (blk_index_facts t).1
  unfold blkE1 iblk
  rw [View.read_apply]
  show V m c main_v23 _ = V m c main_v23 _
  congr 1
  funext a
  apply Fin.ext
  match a with
  | ⟨0, _⟩ => show win0_0.index t 0 * 1024 + 1 * r.val = 1024 * I.val + r.val; rw [hi.1, hI]; omega
  | ⟨1, _⟩ => show win0_0.index t 1 * 128 + 1 * k.val = k.val; rw [hi.2]; omega

theorem blk_read_E2 (c : Dev nD) (t : Fin cfg0.N) (q : Fin 8192) (k : Fin 128) :
    blkE2 m c t (ix2 q k) = (V m c main_v26 : FVec Ideal S8192x128 .bf16) (ix2 q k) := by
  have hi := (blk_index_facts t).2.1
  unfold blkE2 iblk
  rw [View.read_apply]
  show V m c main_v26 _ = V m c main_v26 _
  congr 1
  funext a
  apply Fin.ext
  match a with
  | ⟨0, _⟩ => show win0_1.index t 0 * 8192 + 1 * q.val = q.val; rw [hi.1]; omega
  | ⟨1, _⟩ => show win0_1.index t 1 * 128 + 1 * k.val = k.val; rw [hi.2]; omega

theorem blk_read_pos (c : Dev nD) (t : Fin cfg0.N) (J : Fin 4) (hJ : t.val % 4 = J.val) (q : Fin 2048) :
    blkPos m c t (ix2 (0 : Fin 1) q) = (V m c main_v20 : FVec Ideal S1x8192 .f32) (ix2 (0 : Fin 1) (⟨2048 * J.val + q.val, by omega⟩ : Fin 8192)) := by
  have hi := (blk_index_facts t).2.2.1
  unfold blkPos iblk
  rw [View.read_apply]
  show V m c main_v20 _ = V m c main_v20 _
  congr 1
  funext a
  apply Fin.ext
  match a with
  | ⟨0, _⟩ => show win0_2.index t 0 * 1 + 1 * 0 = 0; rw [hi.1]
  | ⟨1, _⟩ => show win0_2.index t 1 * 2048 + 1 * q.val = 2048 * J.val + q.val; rw [hi.2, hJ]; omega

theorem blk_read_neg (c : Dev nD) (t : Fin cfg0.N) (J : Fin 4) (hJ : t.val % 4 = J.val) (q : Fin 2048) :
    blkNeg m c t (ix2 (0 : Fin 1) q) = (V m c main_v22 : FVec Ideal S1x8192 .f32) (ix2 (0 : Fin 1) (⟨2048 * J.val + q.val, by omega⟩ : Fin 8192)) := by
  have hi := (blk_index_facts t).2.2.2.1
  unfold blkNeg iblk
  rw [View.read_apply]
  show V m c main_v22 _ = V m c main_v22 _
  congr 1
  funext a
  apply Fin.ext
  match a with
  | ⟨0, _⟩ => show win0_3.index t 0 * 1 + 1 * 0 = 0; rw [hi.1]
  | ⟨1, _⟩ => show win0_3.index t 1 * 2048 + 1 * q.val = 2048 * J.val + q.val; rw [hi.2, hJ]; omega

theorem blk_read_row (c : Dev nD) (t : Fin cfg0.N) (I : Fin 8) (hI : t.val / 4 = I.val) (r : Fin 1024) :
    blkRow m c t (ix2 r (0 : Fin 1)) = (V m c main_v12 : FVec Ideal S8192x1 .f32) (ix2 (⟨1024 * I.val + r.val, by omega⟩ : Fin 8192) (0 : Fin 1)) := by
  have hi := (blk_index_facts t).2.2.2.2
  unfold blkRow iblk
  rw [View.read_apply]
  show V m c main_v12 _ = V m c main_v12 _
  congr 1
  funext a
  apply Fin.ext
  match a with
  | ⟨0, _⟩ => show win0_4.index t 0 * 1024 + 1 * r.val = 1024 * I.val + r.val; rw [hi.1, hI]; omega
  | ⟨1, _⟩ => show win0_4.index t 1 * 1 + 1 * 0 = 0; rw [hi.2]

/-- Row block `I = t / 4`: the anchor block's row `r` is anchor `1024·I + r`. -/
theorem blkE1_apply (c : Dev nD) (t : Fin cfg0.N) (I : Fin 8) (hI : t.val / 4 = I.val) (r : Fin 1024) (k : Fin 128) :
    blkE1 m c t (ix2 r k) = E1 m c (⟨1024 * I.val + r.val, by omega⟩ : Fin 8192) k := by
  rw [blk_read_E1 m c t I hI r k, blk_V_anchors]
  rfl

/-- The resident candidates: the whole array, scaled by −2, at every point. -/
theorem blkE2_apply (c : Dev nD) (t : Fin cfg0.N) (q : Fin 8192) (k : Fin 128) :
    blkE2 m c t (ix2 q k) = negTwo * E2 m c q k := by
  rw [blk_read_E2 m c t q k, blk_V_cands]
  rfl

/-- Column tile `J = t % 4` of the positive bias row. -/
theorem blkPos_apply (c : Dev nD) (t : Fin cfg0.N) (J : Fin 4) (hJ : t.val % 4 = J.val) (q : Fin 2048) :
    blkPos m c t (ix2 (0 : Fin 1) q) = posBias (E2 m c) (TG m c) (⟨2048 * J.val + q.val, by omega⟩ : Fin 8192) := by
  rw [blk_read_pos m c t J hJ q, blk_V_posBias, blk_asRow_apply, blk_biasVec_apply, blk_f32_negInf]
  rfl

/-- Column tile `J = t % 4` of the negative bias row. -/
theorem blkNeg_apply (c : Dev nD) (t : Fin cfg0.N) (J : Fin 4) (hJ : t.val % 4 = J.val) (q : Fin 2048) :
    blkNeg m c t (ix2 (0 : Fin 1) q) = negBias (E2 m c) (TG m c) (⟨2048 * J.val + q.val, by omega⟩ : Fin 8192) := by
  rw [blk_read_neg m c t J hJ q, blk_V_negBias, blk_asRow_apply, blk_biasVec_apply, blk_f32_posInf]
  rfl

/-- Row block `I = t / 4` of the row-term column. -/
theorem blkRow_apply (c : Dev nD) (t : Fin cfg0.N) (I : Fin 8) (hI : t.val / 4 = I.val) (r : Fin 1024) :
    blkRow m c t (ix2 r (0 : Fin 1)) = rowTerm (E1 m c) (⟨1024 * I.val + r.val, by omega⟩ : Fin 8192) := by
  rw [blk_read_row m c t I hI r, blk_V_rowTerm, blk_asCol_apply, blk_rowVec_apply]

/-- The positive-class mask the host computes before the launch, widened to a float, is the anchor weight. -/
theorem maskWeight_apply (c : Dev nD) (j : Fin 8192) :
    (uitofp (F := Ideal) .f32 (V m c main_v1) : FVec Ideal S8192 .f32) (ix1 j) = wt (TG m c) j := by
  rw [blk_V_mask]
  show FloatOps.uitofp (F := Ideal) .f32 (IntOp.cmpi .eq (blk_A2 m c (ix1 j)) 1#32) = _
  unfold wt TG labs
  by_cases h : blk_A2 m c (ix1 j) = 1#32
  · rw [if_pos h, IntOp.cmpi_eq.2 h]; simp [FloatOps.uitofp]
  · rw [if_neg h, eq_zero_of_ne_one (fun e => h (IntOp.cmpi_eq.1 e))]; simp [FloatOps.uitofp]

end Cert.KernelIdeal.Mined

end
-- ==== Proof.KPart.lean ====
/-
  The running maximum and minimum of the mined form, part-way through the candidates. Tile j of the grid covers
  candidates 2048·j … 2048·j + 2047 and lane l of an accumulator collects the columns congruent to l modulo 128; after
  the tiles below column n, lane l of anchor i holds the maximum (minimum) of `cross + bias` over the candidates
  j < n with j ≡ l (mod 128). At n = 8192 the maximum over the 128 lanes is the mined maximum over all candidates.
-/
import proofs.«420582_j30227979829905_3_alg».proof.Proof.Spec

noncomputable section

namespace Cert.Triplet

variable (e1 e2 : Emb) (tgt : Lab)

/-- Lane `l`'s running maximum for anchor `i` over the candidates below column `n`. -/
def partPos (i : Fin 8192) (n : ℕ) (l : Fin 128) : EReal :=
  (Finset.univ.filter fun j : Fin 8192 => j.val < n ∧ j.val % 128 = l.val).sup fun j => cross e1 e2 i j + posBias e2 tgt j

/-- Lane `l`'s running minimum for anchor `i` over the candidates below column `n`. -/
def partNeg (i : Fin 8192) (n : ℕ) (l : Fin 128) : EReal :=
  (Finset.univ.filter fun j : Fin 8192 => j.val < n ∧ j.val % 128 = l.val).inf fun j => cross e1 e2 i j + negBias e2 tgt j

end Cert.Triplet

end
-- ==== Proof.KJoin.lean ====
/-
  Order lemmas for a running maximum / minimum kept lane by lane. The candidates 0 … 8192 are scanned in four tiles of
  2048 columns; lane l (of 128) collects the columns congruent to l modulo 128, sixteen per tile. Joining tile J's
  sixteen columns of lane l to the maximum over the columns below 2048·J gives the maximum over those below 2048·(J+1);
  and the maximum over the lanes of the lanes' maxima over all columns is the maximum over all columns. Likewise for
  minima.
-/
import proofs.«420582_j30227979829905_3_alg».proof.Proof.Spec
import Mathlib.Data.Finset.Lattice.Fold

noncomputable section

namespace Cert.Triplet

/-- The columns below `n` in lane `l`. -/
def laneBelow (n : ℕ) (l : Fin 128) : Finset (Fin 8192) :=
  Finset.univ.filter fun j : Fin 8192 => j.val < n ∧ j.val % 128 = l.val

/-- Membership in a lane below a bound, spelt out. -/
theorem mem_laneBelow {n : ℕ} {l : Fin 128} {j : Fin 8192} :
    j ∈ laneBelow n l ↔ j.val < n ∧ j.val % 128 = l.val := by
  unfold laneBelow
  rw [Finset.mem_filter]
  exact ⟨fun h => h.2, fun h => ⟨Finset.mem_univ _, h⟩⟩

/-- A lane grows with its bound. -/
theorem laneBelow_mono {m n : ℕ} (h : m ≤ n) (l : Fin 128) : laneBelow m l ⊆ laneBelow n l := fun j hj => by
  rw [mem_laneBelow] at hj ⊢
  exact ⟨lt_of_lt_of_le hj.1 h, hj.2⟩

/-- Column `2048·J + 128·k + l` lies in lane `l`, below the end of tile `J`. -/
theorem tile_mem (J : Fin 4) (l : Fin 128) (k : Fin 16) (h : 2048 * J.val + (128 * k.val + l.val) < 8192) :
    (⟨2048 * J.val + (128 * k.val + l.val), h⟩ : Fin 8192) ∈ laneBelow (2048 * (J.val + 1)) l := by
  rw [mem_laneBelow]
  have hk := k.isLt
  have hl := l.isLt
  exact ⟨by show 2048 * J.val + (128 * k.val + l.val) < 2048 * (J.val + 1); omega,
    by show (2048 * J.val + (128 * k.val + l.val)) % 128 = l.val; omega⟩

/-- A column of lane `l` inside tile `J` is `2048·J + 128·k + l` for its quotient `k` below 16. -/
theorem tile_split (J : Fin 4) (l : Fin 128) (j : Fin 8192) (hj : j ∈ laneBelow (2048 * (J.val + 1)) l)
    (hlo : ¬ j.val < 2048 * J.val) :
    ∃ k : Fin 16, j.val = 2048 * J.val + (128 * k.val + l.val) := by
  rw [mem_laneBelow] at hj
  obtain ⟨h1, h2⟩ := hj
  have hl := l.isLt
  refine ⟨⟨(j.val - 2048 * J.val) / 128, by omega⟩, ?_⟩
  show j.val = 2048 * J.val + (128 * ((j.val - 2048 * J.val) / 128) + l.val)
  omega

/-- Below column 0 a lane is empty: its maximum is −∞ and its minimum +∞. -/
theorem laneBelow_zero (l : Fin 128) : laneBelow 0 l = ∅ := by
  refine Finset.eq_empty_of_forall_notMem fun j hj => ?_
  rw [mem_laneBelow] at hj
  exact Nat.not_lt_zero _ hj.1

/-- Joining tile `J`'s sixteen columns of lane `l` to the running maximum. -/
theorem lane_sup_step (f : Fin 8192 → EReal) (J : Fin 4) (l : Fin 128) :
    max ((laneBelow (2048 * J.val) l).sup f)
        (Finset.univ.sup fun k : Fin 16 => f (⟨2048 * J.val + (128 * k.val + l.val), by omega⟩ : Fin 8192))
      = (laneBelow (2048 * (J.val + 1)) l).sup f := by
  refine le_antisymm (max_le ?_ ?_) (Finset.sup_le fun j hj => ?_)
  · exact Finset.sup_mono (laneBelow_mono (by omega) l)
  · exact Finset.sup_le fun k _ => Finset.le_sup (f := f) (tile_mem J l k _)
  · by_cases hlo : j.val < 2048 * J.val
    · exact le_max_of_le_left (Finset.le_sup (f := f) (mem_laneBelow.mpr ⟨hlo, (mem_laneBelow.mp hj).2⟩))
    · obtain ⟨k, hk⟩ := tile_split J l j hj hlo
      refine le_max_of_le_right ?_
      have e : j = (⟨2048 * J.val + (128 * k.val + l.val), by omega⟩ : Fin 8192) := Fin.ext hk
      rw [e]
      exact Finset.le_sup (f := fun k : Fin 16 => f (⟨2048 * J.val + (128 * k.val + l.val), by omega⟩ : Fin 8192))
        (Finset.mem_univ k)

/-- Joining tile `J`'s sixteen columns of lane `l` to the running minimum. -/
theorem lane_inf_step (f : Fin 8192 → EReal) (J : Fin 4) (l : Fin 128) :
    min ((laneBelow (2048 * J.val) l).inf f)
        (Finset.univ.inf fun k : Fin 16 => f (⟨2048 * J.val + (128 * k.val + l.val), by omega⟩ : Fin 8192))
      = (laneBelow (2048 * (J.val + 1)) l).inf f := by
  refine le_antisymm (Finset.le_inf fun j hj => ?_) (le_min ?_ ?_)
  · by_cases hlo : j.val < 2048 * J.val
    · exact min_le_of_left_le (Finset.inf_le (f := f) (mem_laneBelow.mpr ⟨hlo, (mem_laneBelow.mp hj).2⟩))
    · obtain ⟨k, hk⟩ := tile_split J l j hj hlo
      refine min_le_of_right_le ?_
      have e : j = (⟨2048 * J.val + (128 * k.val + l.val), by omega⟩ : Fin 8192) := Fin.ext hk
      rw [e]
      exact Finset.inf_le (f := fun k : Fin 16 => f (⟨2048 * J.val + (128 * k.val + l.val), by omega⟩ : Fin 8192))
        (Finset.mem_univ k)
  · exact Finset.inf_mono (laneBelow_mono (by omega) l)
  · exact Finset.le_inf fun k _ => Finset.inf_le (f := f) (tile_mem J l k _)

/-- Every column lies in its own lane, below 8192. -/
theorem mem_own_lane (j : Fin 8192) : j ∈ laneBelow 8192 (⟨j.val % 128, Nat.mod_lt _ (by decide)⟩ : Fin 128) :=
  mem_laneBelow.mpr ⟨j.isLt, rfl⟩

/-- The maximum over the 128 lanes of each lane's maximum over all columns is the maximum over all columns. -/
theorem lanes_sup_all (f : Fin 8192 → EReal) :
    (Finset.univ.sup fun l : Fin 128 => (laneBelow 8192 l).sup f) = Finset.univ.sup f := by
  refine le_antisymm (Finset.sup_le fun l _ => Finset.sup_mono (Finset.subset_univ _)) (Finset.sup_le fun j _ => ?_)
  exact le_trans (Finset.le_sup (f := f) (mem_own_lane j))
    (Finset.le_sup (f := fun l : Fin 128 => (laneBelow 8192 l).sup f) (Finset.mem_univ _))

/-- The minimum over the 128 lanes of each lane's minimum over all columns is the minimum over all columns. -/
theorem lanes_inf_all (f : Fin 8192 → EReal) :
    (Finset.univ.inf fun l : Fin 128 => (laneBelow 8192 l).inf f) = Finset.univ.inf f := by
  refine le_antisymm (Finset.le_inf fun j _ => ?_) (Finset.le_inf fun l _ => Finset.inf_mono (Finset.subset_univ _))
  exact le_trans (Finset.inf_le (f := fun l : Fin 128 => (laneBelow 8192 l).inf f) (Finset.mem_univ _))
    (Finset.inf_le (f := f) (mem_own_lane j))

end Cert.Triplet

end
-- ==== Proof.KTile.lean ====
/-
  One grid point of the mining kernel, as mathematics. The point at grid column `j` holds an anchor block `x0`
  (1024 rows of 128 coordinates), the resident candidates `x1` (8192 rows, already scaled by −2) of which it uses
  rows 2048·j … 2048·j + 2047, and the two bias rows' tiles `x2`, `x3` (2048 columns each). Its cross-term tile is
  `x0 · x1ᵀ` on those rows; the tile is folded into a lane-wide accumulator of 128 lanes, column 128·k + l going to
  lane l: a running maximum of `cross + positive bias`, a running minimum of `cross + negative bias`.
-/
import proofs.«420582_j30227979829905_3_alg».proof.Proof.Spec
import Idealize.ShloMosaic.Lib.ValueIdx

noncomputable section

namespace Cert.Triplet

open Idealize.ShloMosaic Idealize.ShloMosaic.ValueIdx

/-- Cross term of anchor row `r` of the block against candidate row `2048·j + q` of the resident array. -/
def tileCross (x0 : (⟨2, ![1024, 128]⟩ : Shape).Idx → EReal) (x1 : (⟨2, ![8192, 128]⟩ : Shape).Idx → EReal)
    (j : Fin 4) (r : Fin 1024) (q : Fin 2048) : EReal :=
  ∑ k : Fin 128, x0 (ix2 r k) * x1 (ix2 (⟨2048 * j.val + q.val, by omega⟩ : Fin 8192) k)

/-- What the 16 column chunks of one tile contribute to lane `l` of the running maximum: the largest
    `cross + bias` over the tile's columns congruent to `l` modulo 128. -/
def tilePos (x0 : (⟨2, ![1024, 128]⟩ : Shape).Idx → EReal) (x1 : (⟨2, ![8192, 128]⟩ : Shape).Idx → EReal)
    (x2 : (⟨2, ![1, 2048]⟩ : Shape).Idx → EReal) (j : Fin 4) (r : Fin 1024) (l : Fin 128) : EReal :=
  Finset.univ.sup fun k : Fin 16 =>
    tileCross x0 x1 j r (⟨128 * k.val + l.val, by omega⟩ : Fin 2048)
      + x2 (ix2 (0 : Fin 1) (⟨128 * k.val + l.val, by omega⟩ : Fin 2048))

/-- The same for the running minimum, with the negative-class bias tile. -/
def tileNeg (x0 : (⟨2, ![1024, 128]⟩ : Shape).Idx → EReal) (x1 : (⟨2, ![8192, 128]⟩ : Shape).Idx → EReal)
    (x3 : (⟨2, ![1, 2048]⟩ : Shape).Idx → EReal) (j : Fin 4) (r : Fin 1024) (l : Fin 128) : EReal :=
  Finset.univ.inf fun k : Fin 16 =>
    tileCross x0 x1 j r (⟨128 * k.val + l.val, by omega⟩ : Fin 2048)
      + x3 (ix2 (0 : Fin 1) (⟨128 * k.val + l.val, by omega⟩ : Fin 2048))

/-- The finalize step on one anchor row: reduce the two accumulators over their 128 lanes, add the row term, clamp at 0,
    take roots, and form the hinge. `P`, `N` are the accumulators' rows after the last tile, `rc` the row term. -/
def finalize (P N : Fin 128 → EReal) (rc : EReal) : EReal :=
  max ((Ideal.sqrt (max (Finset.univ.sup P + rc) 0) - Ideal.sqrt (max (Finset.univ.inf N + rc) 0)) + margin) 0

end Cert.Triplet

end
-- ==== Proof.KPiecesPos.lean ====
/-
  What each control case of the kernel body leaves in the running-maximum accumulator, read at one element at the
  extended reals: the first tile of a row block starts from −∞, so it leaves the tile's own maxima; every later tile
  leaves the larger of what it found and the tile's maxima.
-/
import proofs.«420582_j30227979829905_3_alg».proof.Proof.Gen.KernelIdeal.Frame
import proofs.«420582_j30227979829905_3_alg».proof.Proof.KTile
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Mined

open Cert.KernelIdeal Cert.KernelIdeal.Gen Cert.Triplet
open Idealize.ShloMosaic Idealize.ShloMosaic.TcCoe Idealize.SL.Sem Idealize.ShloMosaic.ValueIdx
open Idealize.ShloMosaic.Pipeline (Dat)

/-! ## The extended reals: a chain of sixteen maxima is one maximum over sixteen terms -/

/-- The supremum over `Fin (n + 1)` splits off its last term. -/
theorem pos_sup_fin_castSucc {n : ℕ} (f : Fin (n + 1) → EReal) :
    Finset.univ.sup f = max (Finset.univ.sup fun i : Fin n => f i.castSucc) (f (Fin.last n)) := by
  rw [Fin.univ_castSuccEmb, Finset.sup_cons, Finset.sup_map, sup_comm]
  rfl

/-- `a` joined, one after the other, with `f 0`, …, `f (n − 1)`. -/
def pos_chainMax (a : EReal) : (n : ℕ) → (Fin n → EReal) → EReal
  | 0, _ => a
  | n + 1, f => max (pos_chainMax a n fun i => f i.castSucc) (f (Fin.last n))

theorem pos_chainMax_eq (a : EReal) : ∀ (n : ℕ) (f : Fin n → EReal), pos_chainMax a n f = max a (Finset.univ.sup f)
  | 0, f => by
    show a = max a (Finset.univ.sup f)
    rw [Finset.univ_eq_empty, Finset.sup_empty]
    exact (max_bot_right a).symm
  | n + 1, f => by
    show max (pos_chainMax a n fun i => f i.castSucc) (f (Fin.last n)) = _
    rw [pos_chainMax_eq a n, pos_sup_fin_castSucc f, max_assoc]

/-! ## One update of the running maximum, read at an element -/

/-- The larger of the accumulator and `cross + bias` on the column chunk `k`: lane `l` of row `r` meets column
    `128·k + l` of the cross-term tile and of the bias row. -/
theorem pos_update_apply (C : FVec Ideal S1024x2048 .f32) (b : FVec Ideal S1x2048 .f32) (acc : FVec Ideal S1024x128 .f32)
    (k : Fin 16) (h1 : S1024x2048.Slices ![0, 128 * k.val] S1024x128) (h2 : S1x2048.Slices ![0, 128 * k.val] S1x128)
    (hb : S1x128.Broadcasts S1024x128) (r : Fin 1024) (l : Fin 128) :
    maximumf acc (addf (extractStridedSlice S1024x128 ![0, 128 * k.val] C h1)
        (broadcastTo S1024x128 (extractStridedSlice S1x128 ![0, 128 * k.val] b h2) hb)) (ix2 r l)
      = max (acc (ix2 r l))
          (C (ix2 r (⟨128 * k.val + l.val, by omega⟩ : Fin 2048))
            + b (ix2 (0 : Fin 1) (⟨128 * k.val + l.val, by omega⟩ : Fin 2048))) := by
  rw [maximumf_apply, addf_apply]
  refine congrArg₂ (fun u v => max (acc (ix2 r l)) (u + v)) ?_ ?_
  · exact extractStridedSlice_apply _ C h1 (ix2 r l) (ix2 r (⟨128 * k.val + l.val, by omega⟩ : Fin 2048)) (fun a =>
      match a with
      | ⟨0, _⟩ => (Nat.zero_add _).symm
      | ⟨1, _⟩ => rfl)
  · refine (broadcastTo_apply _ hb (ix2 r l) (ix2 (0 : Fin 1) l) (fun a =>
      match a with
      | ⟨0, _⟩ => rfl
      | ⟨1, _⟩ => rfl)).trans ?_
    exact extractStridedSlice_apply _ b h2 (ix2 (0 : Fin 1) l) (ix2 (0 : Fin 1) (⟨128 * k.val + l.val, by omega⟩ : Fin 2048)) (fun a =>
      match a with
      | ⟨0, _⟩ => rfl
      | ⟨1, _⟩ => rfl)

/-! ## The cross-term tile, read at an element -/

theorem pos_lhs_dot_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem pos_lhs_dot_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem pos_rhs_dot_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem pos_rhs_dot_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- Element `(r, q)` of the cross-term tile is the inner product of anchor row `r` and candidate row `q` of the tile. -/
theorem pos_cross_apply (x0 : Vec Ideal S1024x128 .bf16) (X1 : Vec Ideal S2048x128 .bf16) (r : Fin 1024) (q : Fin 2048) :
    k0_pay9 (F := Ideal) x0 X1 (ix2 r q) = ∑ k : Fin 128, x0 (ix2 r k) * X1 (ix2 q k) := by
  unfold k0_pay9
  simp only [shapeCast_self, matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 r q) ((contrEquiv1 dot_S1024x128_S2048x128_S1024x2048_1_1_0_0_n_n 128 rfl rfl).symm k) = ix2 r k := funext fun a => Fin.ext (by
    match a with
    | ⟨0, _⟩ => exact pos_lhs_dot_0 _ _
    | ⟨1, _⟩ => exact (pos_lhs_dot_1 _ _).trans hk)
  have er : dot_S1024x128_S2048x128_S1024x2048_1_1_0_0_n_n.rhsIdx (ix2 r q) ((contrEquiv1 dot_S1024x128_S2048x128_S1024x2048_1_1_0_0_n_n 128 rfl rfl).symm k) = ix2 q k := funext fun a => Fin.ext (by
    match a with
    | ⟨0, _⟩ => exact pos_rhs_dot_0 _ _
    | ⟨1, _⟩ => exact (pos_rhs_dot_1 _ _).trans hk)
  rw [el, er]

/-- The tile of the resident candidates at grid column `j`: its row `q` is row `2048·j + q` of the array. -/
theorem pos_tile_apply (x1 : Vec Ideal S8192x128 .bf16) (off : Fin 2 → Nat)
    (inb : ∀ a, off a + S2048x128.size a ≤ S8192x128.size a) (j : Fin 4) (h0 : off 0 = 2048 * j.val) (h1 : off 1 = 0)
    (q : Fin 2048) (k : Fin 128) :
    View.ld x1 (Rect.unit off S2048x128.size inb) (ix2 q k)
      = x1 (ix2 (⟨2048 * j.val + q.val, by omega⟩ : Fin 8192) k) := by
  show x1 _ = x1 _
  refine congrArg x1 (funext fun a => Fin.ext ?_)
  match a with
  | ⟨0, _⟩ => show off 0 + 1 * q.val = 2048 * j.val + q.val; omega
  | ⟨1, _⟩ => show off 1 + 1 * k.val = k.val; omega

/-- The tile's first row, as the kernel computes it from the grid column. -/
theorem pos_off1_zero (i : grid0.Coords) (j : Fin 4) (hj : (i 1).val = j.val) : k0_off1 i 0 = 2048 * j.val := by
  show BitVec.toNat (Scalar.indexCast (Scalar.muli (BitVec.ofNat 32 (i 1).val) 2048#32)) = 2048 * j.val
  rw [hj]
  have hlt := j.isLt
  simp only [Scalar.indexCast, Scalar.muli, IntOp.muli, BitVec.toNat_mul, BitVec.toNat_ofNat]
  omega

/-! ## What the three control cases store: the sixteen updates composed -/

section Chain
variable {F : FTy → Type} [FloatOps F]

/-- The sixteen updates of the running maximum at one grid point, in the order the body performs them: on the anchor block
    `x0`, the candidates' tile `X1`, the bias tile `x2` and what the accumulator held. -/
def pos_chain (x0 : Vec F S1024x128 .bf16) (X1 : Vec F S2048x128 .bf16) (x2 : Vec F S1x2048 .f32)
    (acc : Vec F S1024x128 .f32) : FVec F S1024x128 .f32 :=
  k0_pay4 (k0_pay9 x0 X1) (k0_pay10 x2) (k0_pay1 (k0_pay63 (k0_pay9 x0 X1) (k0_pay10 x2) (k0_pay59 (k0_pay9 x0 X1) (k0_pay10 x2) (k0_pay56 (k0_pay54 (k0_pay9 x0 X1) (k0_pay10 x2)) (k0_pay51 (k0_pay9 x0 X1) (k0_pay10 x2) (k0_pay48 (k0_pay10 x2) (k0_pay47 (k0_pay9 x0 X1)) (k0_pay45 (k0_pay9 x0 X1) (k0_pay10 x2) (k0_pay42 (k0_pay9 x0 X1) (k0_pay10 x2) (k0_pay38 (k0_pay9 x0 X1) (k0_pay10 x2) (k0_pay35 (k0_pay9 x0 X1) (k0_pay10 x2) (k0_pay32 (k0_pay9 x0 X1) (k0_pay10 x2) (k0_pay28 (k0_pay9 x0 X1) (k0_pay10 x2) (k0_pay25 (k0_pay23 (k0_pay9 x0 X1) (k0_pay10 x2)) (k0_pay20 (k0_pay9 x0 X1) (k0_pay10 x2) (k0_pay17 (k0_pay16 x0 X1 x2) (k0_pay13 x0 X1 x2 acc))))))))))))))))

theorem pos_zeros2 : (![0, 0] : Fin 2 → Nat) = fun _ => 0 := funext fun a => by fin_cases a <;> rfl

/-- The first tile of a row block: the updates start from the reset accumulator. -/
theorem pos_soutA_chain (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .bf16) (x1 : Vec F S8192x128 .bf16) (x2 : Vec F S1x2048 .f32) (x3 : Vec F S1x2048 .f32) (x4 : Vec F S1024x1 .f32) :
    sout0_A_0 c i arg2 harg2 arg3 harg3 arg4 harg4 arg5 harg5 arg6 harg6 arg7 harg7 arg8 harg8 arg9 harg9 hc0 hc1 x0 x1 x2 x3 x4
      = pos_chain x0 (View.ld x1 (Rect.unit (k0_off1 i) S2048x128.size (k0_off1_inb i))) x2 k0_pay7 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x128) pos_zeros2]
  simp only [View.readAt_eq_ld, harg2.read_unread, harg3.read_unread, harg4.read_unread, harg5.read_unread, harg6.read_unread, harg8.read_unread, harg9.read_unread, View.readCov_cons_toLoadRect, View.ld_unit_zero (S := S1024x128) pos_zeros2, View.ld_unit_zero (S := S1x2048) pos_zeros2]
  rfl

/-- A middle tile: the updates start from what the accumulator held. -/
theorem pos_soutB_chain (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .bf16) (x1 : Vec F S8192x128 .bf16) (x2 : Vec F S1x2048 .f32) (x3 : Vec F S1x2048 .f32) (x4 : Vec F S1024x1 .f32) (xs0 : Vec F S1024x128 .f32) (xs1 : Vec F S1024x128 .f32) :
    sout0_B_0 c i arg2 harg2 arg3 harg3 arg4 harg4 arg5 harg5 arg6 harg6 arg7 harg7 arg8 harg8 arg9 harg9 hc0 hc1 x0 x1 x2 x3 x4 xs0 xs1
      = pos_chain x0 (View.ld x1 (Rect.unit (k0_off1 i) S2048x128.size (k0_off1_inb i))) x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_cons_unit_zero (S := S1024x128) pos_zeros2]
  simp only [View.readAt_eq_ld, harg2.read_unread, harg3.read_unread, harg4.read_unread, harg5.read_unread, harg6.read_unread, harg8.read_unread, harg9.read_unread, View.readCov_cons_toLoadRect, View.ld_unit_zero (S := S1024x128) pos_zeros2, View.ld_unit_zero (S := S1x2048) pos_zeros2]
  rfl

/-- The last tile: the same sixteen updates. -/
theorem pos_soutC_chain (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .bf16) (x1 : Vec F S8192x128 .bf16) (x2 : Vec F S1x2048 .f32) (x3 : Vec F S1x2048 .f32) (x4 : Vec F S1024x1 .f32) (xs0 : Vec F S1024x128 .f32) (xs1 : Vec F S1024x128 .f32) :
    sout0_C_0 c i arg2 harg2 arg3 harg3 arg4 harg4 arg5 harg5 arg6 harg6 arg7 harg7 arg8 harg8 arg9 harg9 hc0 hc1 x0 x1 x2 x3 x4 xs0 xs1
      = pos_chain x0 (View.ld x1 (Rect.unit (k0_off1 i) S2048x128.size (k0_off1_inb i))) x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1024x128) pos_zeros2]
  simp only [View.readAt_eq_ld, harg2.read_unread, harg3.read_unread, harg4.read_unread, harg5.read_unread, harg6.read_unread, harg8.read_unread, harg9.read_unread, View.readCov_cons_toLoadRect, View.ld_unit_zero (S := S1024x128) pos_zeros2, View.ld_unit_zero (S := S1x2048) pos_zeros2]
  rfl

end Chain

/-! ## The sixteen updates read at an element -/

/-- `cross + bias` at row `r` and column `128·k + l`: what column chunk `k` offers lane `l`. -/
def pos_colTerm (C : FVec Ideal S1024x2048 .f32) (b : FVec Ideal S1x2048 .f32) (r : Fin 1024) (l : Fin 128) (k : Fin 16) : EReal :=
  C (ix2 r (⟨128 * k.val + l.val, by omega⟩ : Fin 2048)) + b (ix2 (0 : Fin 1) (⟨128 * k.val + l.val, by omega⟩ : Fin 2048))

/-- One update on top of an accumulator whose element is already known. -/
theorem pos_update_step (C : FVec Ideal S1024x2048 .f32) (b : FVec Ideal S1x2048 .f32) (acc : FVec Ideal S1024x128 .f32)
    (k : Fin 16) (h1 : S1024x2048.Slices ![0, 128 * k.val] S1024x128) (h2 : S1x2048.Slices ![0, 128 * k.val] S1x128)
    (hb : S1x128.Broadcasts S1024x128) (r : Fin 1024) (l : Fin 128) (A : EReal) (hA : acc (ix2 r l) = A) :
    maximumf acc (addf (extractStridedSlice S1024x128 ![0, 128 * k.val] C h1)
        (broadcastTo S1024x128 (extractStridedSlice S1x128 ![0, 128 * k.val] b h2) hb)) (ix2 r l)
      = max A (pos_colTerm C b r l k) := by
  rw [pos_update_apply, hA]
  rfl

/-- The sixteen updates leave the larger of the accumulator's element and the sixteen chunks' offers. -/
theorem pos_chain_apply (x0 : Vec Ideal S1024x128 .bf16) (X1 : Vec Ideal S2048x128 .bf16) (x2 : Vec Ideal S1x2048 .f32)
    (acc : Vec Ideal S1024x128 .f32) (r : Fin 1024) (l : Fin 128) :
    pos_chain (F := Ideal) x0 X1 x2 acc (ix2 r l)
      = max (acc (ix2 r l)) (Finset.univ.sup (pos_colTerm (k0_pay9 (F := Ideal) x0 X1) x2 r l)) := by
  rw [← pos_chainMax_eq]
  unfold pos_chain k0_pay4 k0_pay3 k0_pay1 k0_pay63 k0_pay61 k0_pay59 k0_pay58 k0_pay56 k0_pay54 k0_pay53 k0_pay51 k0_pay50
    k0_pay48 k0_pay47 k0_pay45 k0_pay44 k0_pay42 k0_pay41 k0_pay38 k0_pay37 k0_pay35 k0_pay34 k0_pay32 k0_pay30 k0_pay28
    k0_pay27 k0_pay25 k0_pay23 k0_pay22 k0_pay20 k0_pay19 k0_pay17 k0_pay16 k0_pay15 k0_pay13 k0_pay12 k0_pay10
  simp only [shapeCast_self]
  exact pos_update_step _ _ _ 15 _ _ _ r l _ (pos_update_step _ _ _ 14 _ _ _ r l _ (pos_update_step _ _ _ 13 _ _ _ r l _
    (pos_update_step _ _ _ 12 _ _ _ r l _ (pos_update_step _ _ _ 11 _ _ _ r l _ (pos_update_step _ _ _ 10 _ _ _ r l _
    (pos_update_step _ _ _ 9 _ _ _ r l _ (pos_update_step _ _ _ 8 _ _ _ r l _ (pos_update_step _ _ _ 7 _ _ _ r l _
    (pos_update_step _ _ _ 6 _ _ _ r l _ (pos_update_step _ _ _ 5 _ _ _ r l _ (pos_update_step _ _ _ 4 _ _ _ r l _
    (pos_update_step _ _ _ 3 _ _ _ r l _ (pos_update_step _ _ _ 2 _ _ _ r l _ (pos_update_step _ _ _ 1 _ _ _ r l _
    (pos_update_step _ _ _ 0 _ _ _ r l _ rfl)))))))))))))))

/-- With the tile taken at grid column `j`, the chunks' offers are the tile's maxima of `KTile`. -/
theorem pos_sup_colTerm (x0 : Vec Ideal S1024x128 .bf16) (x1 : Vec Ideal S8192x128 .bf16) (x2 : Vec Ideal S1x2048 .f32)
    (off : Fin 2 → Nat) (inb : ∀ a, off a + S2048x128.size a ≤ S8192x128.size a) (j : Fin 4)
    (h0 : off 0 = 2048 * j.val) (h1 : off 1 = 0) (r : Fin 1024) (l : Fin 128) :
    Finset.univ.sup (pos_colTerm (k0_pay9 (F := Ideal) x0 (View.ld x1 (Rect.unit off S2048x128.size inb))) x2 r l)
      = tilePos x0 x1 x2 j r l := by
  unfold tilePos
  refine Finset.sup_congr rfl fun k _ => ?_
  unfold pos_colTerm tileCross
  rw [pos_cross_apply]
  refine congrArg (· + _) (Finset.sum_congr rfl fun t _ => ?_)
  rw [pos_tile_apply x1 off inb j h0 h1]

/-- The reset accumulator holds −∞ everywhere. -/
theorem pos_reset_apply (y : S1024x128.Idx) : k0_pay7 (F := Ideal) y = ⊥ := by
  unfold k0_pay7
  simp only [shapeCast_self]
  show Ideal.ofBits .f32 0xFF800000#32 = ⊥
  simp [Ideal.ofBits, Ideal.ieee]

/-- First tile of a row block (the accumulator is reset to −∞ first): lane `l` of row `r` holds the tile's maximum. -/
theorem posA_apply (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec Ideal S1024x128 .bf16) (x1 : Vec Ideal S8192x128 .bf16) (x2 : Vec Ideal S1x2048 .f32) (x3 : Vec Ideal S1x2048 .f32) (x4 : Vec Ideal S1024x1 .f32) (j : Fin 4) (hj : (i 1).val = j.val) (r : Fin 1024) (l : Fin 128) :
    sout0_A_0 (F := Ideal) c i arg2 harg2 arg3 harg3 arg4 harg4 arg5 harg5 arg6 harg6 arg7 harg7 arg8 harg8 arg9 harg9 hc0 hc1 x0 x1 x2 x3 x4 (ix2 r l) = tilePos x0 x1 x2 j r l := by
  rw [pos_soutA_chain, pos_chain_apply, pos_sup_colTerm x0 x1 x2 (k0_off1 i) (k0_off1_inb i) j (pos_off1_zero i j hj) rfl, pos_reset_apply]
  exact max_eq_right bot_le

/-- A middle tile: the larger of what the accumulator held and the tile's maximum. -/
theorem posB_apply (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec Ideal S1024x128 .bf16) (x1 : Vec Ideal S8192x128 .bf16) (x2 : Vec Ideal S1x2048 .f32) (x3 : Vec Ideal S1x2048 .f32) (x4 : Vec Ideal S1024x1 .f32) (xs0 : Vec Ideal S1024x128 .f32) (xs1 : Vec Ideal S1024x128 .f32) (j : Fin 4) (hj : (i 1).val = j.val) (r : Fin 1024) (l : Fin 128) :
    sout0_B_0 (F := Ideal) c i arg2 harg2 arg3 harg3 arg4 harg4 arg5 harg5 arg6 harg6 arg7 harg7 arg8 harg8 arg9 harg9 hc0 hc1 x0 x1 x2 x3 x4 xs0 xs1 (ix2 r l) = max (xs0 (ix2 r l)) (tilePos x0 x1 x2 j r l) := by
  rw [pos_soutB_chain, pos_chain_apply, pos_sup_colTerm x0 x1 x2 (k0_off1 i) (k0_off1_inb i) j (pos_off1_zero i j hj) rfl]

/-- The last tile: the same update (the finalize step reads the accumulator, it does not change it). -/
theorem posC_apply (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec Ideal S1024x128 .bf16) (x1 : Vec Ideal S8192x128 .bf16) (x2 : Vec Ideal S1x2048 .f32) (x3 : Vec Ideal S1x2048 .f32) (x4 : Vec Ideal S1024x1 .f32) (xs0 : Vec Ideal S1024x128 .f32) (xs1 : Vec Ideal S1024x128 .f32) (j : Fin 4) (hj : (i 1).val = j.val) (r : Fin 1024) (l : Fin 128) :
    sout0_C_0 (F := Ideal) c i arg2 harg2 arg3 harg3 arg4 harg4 arg5 harg5 arg6 harg6 arg7 harg7 arg8 harg8 arg9 harg9 hc0 hc1 x0 x1 x2 x3 x4 xs0 xs1 (ix2 r l) = max (xs0 (ix2 r l)) (tilePos x0 x1 x2 j r l) := by
  rw [pos_soutC_chain, pos_chain_apply, pos_sup_colTerm x0 x1 x2 (k0_off1 i) (k0_off1_inb i) j (pos_off1_zero i j hj) rfl]

end Cert.KernelIdeal.Mined

end
-- ==== Proof.KPiecesNeg.lean ====
/-
  What each control case of the kernel body leaves in the running-minimum accumulator, read at one element at the
  extended reals: the first tile of a row block starts from +∞; every later tile leaves the smaller of what it found
  and the tile's minima.
-/
import proofs.«420582_j30227979829905_3_alg».proof.Proof.Gen.KernelIdeal.Frame
import proofs.«420582_j30227979829905_3_alg».proof.Proof.KTile
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Mined

open Cert.KernelIdeal Cert.KernelIdeal.Gen Cert.Triplet
open Idealize.ShloMosaic Idealize.ShloMosaic.TcCoe Idealize.SL.Sem Idealize.ShloMosaic.ValueIdx
open Idealize.ShloMosaic.Pipeline (Dat)

/-- The zero offsets of a whole-buffer access, however spelt. -/
theorem neg_zeroOff : (![0, 0] : Fin 2 → Nat) = fun _ => 0 := funext fun a => by fin_cases a <;> rfl

/-! ## The cross-term tile at an index -/

/-- The matmul's left operand index at output (r, c) and contraction position q: row r … -/
theorem neg_lhs_tile_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- … coordinate q. -/
theorem neg_lhs_tile_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- The right operand index: candidate row c … -/
theorem neg_rhs_tile_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- … coordinate q. -/
theorem neg_rhs_tile_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The cross-term tile at (r, q): the inner product of anchor row r and candidate row q of the tile. -/
theorem neg_tile_apply (x0 : Vec Ideal S1024x128 .bf16) (X1 : Vec Ideal S2048x128 .bf16) (r : Fin 1024) (q : Fin 2048) :
    k0_pay9 (F := Ideal) x0 X1 (ix2 r q) = ∑ k : Fin 128, x0 (ix2 r k) * X1 (ix2 q k) := by
  unfold k0_pay9
  simp only [shapeCast_self, matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 r q) ((contrEquiv1 dot_S1024x128_S2048x128_S1024x2048_1_1_0_0_n_n 128 rfl rfl).symm k) = ix2 r k := funext fun a => Fin.ext (by
    match a with
    | ⟨0, _⟩ => exact neg_lhs_tile_0 _ _
    | ⟨1, _⟩ => exact (neg_lhs_tile_1 _ _).trans hk)
  have er : dot_S1024x128_S2048x128_S1024x2048_1_1_0_0_n_n.rhsIdx (ix2 r q) ((contrEquiv1 dot_S1024x128_S2048x128_S1024x2048_1_1_0_0_n_n 128 rfl rfl).symm k) = ix2 q k := funext fun a => Fin.ext (by
    match a with
    | ⟨0, _⟩ => exact neg_rhs_tile_0 _ _
    | ⟨1, _⟩ => exact (neg_rhs_tile_1 _ _).trans hk)
  rw [el, er]

/-! ## One update of the running minimum at an element -/

/-- Chunk `k`'s candidate for lane `l` of row `r`: cross term plus bias at column `128·k + l` of the tile. -/
def neg_cand (C : FVec Ideal S1024x2048 .f32) (B : FVec Ideal S1x2048 .f32) (r : Fin 1024) (l : Fin 128) (k : Fin 16) : EReal :=
  C (ix2 r (⟨128 * k.val + l.val, by omega⟩ : Fin 2048)) + B (ix2 (0 : Fin 1) (⟨128 * k.val + l.val, by omega⟩ : Fin 2048))

/-- One update, whatever its column offset `o = 128·k`: the smaller of the accumulator's element and the chunk's candidate. -/
theorem neg_step_apply (k : Fin 16) (o : Nat) (ho : o = 128 * k.val)
    (hs1 : S1024x2048.Slices ![0, o] S1024x128) (hs2 : S1x2048.Slices ![0, o] S1x128)
    (hb : S1x128.Broadcasts S1024x128) (hc : S1024x128.ShapeCasts S1024x128)
    (C : FVec Ideal S1024x2048 .f32) (B : FVec Ideal S1x2048 .f32) (acc : Vec Ideal S1024x128 .f32)
    (r : Fin 1024) (l : Fin 128) :
    shapeCast S1024x128 (minimumf acc (addf (extractStridedSlice S1024x128 ![0, o] C hs1)
        (broadcastTo S1024x128 (extractStridedSlice S1x128 ![0, o] B hs2) hb))) hc (ix2 r l)
      = min (acc (ix2 r l)) (neg_cand C B r l k) := by
  subst ho
  rw [shapeCast_self]
  show min (acc (ix2 r l)) (extractStridedSlice S1024x128 ![0, 128 * k.val] C hs1 (ix2 r l)
      + broadcastTo S1024x128 (extractStridedSlice S1x128 ![0, 128 * k.val] B hs2) hb (ix2 r l)) = _
  unfold neg_cand
  have e1 : extractStridedSlice S1024x128 ![0, 128 * k.val] C hs1 (ix2 r l)
      = C (ix2 r (⟨128 * k.val + l.val, by omega⟩ : Fin 2048)) :=
    extractStridedSlice_apply _ C hs1 (ix2 r l) (ix2 r (⟨128 * k.val + l.val, by omega⟩ : Fin 2048)) (fun a => match a with
      | ⟨0, _⟩ => by show r.val = 0 + r.val; omega
      | ⟨1, _⟩ => by show 128 * k.val + l.val = 128 * k.val + l.val; rfl)
  have e2 : broadcastTo S1024x128 (extractStridedSlice S1x128 ![0, 128 * k.val] B hs2) hb (ix2 r l)
      = B (ix2 (0 : Fin 1) (⟨128 * k.val + l.val, by omega⟩ : Fin 2048)) := by
    refine (broadcastTo_apply _ hb (ix2 r l) (ix2 (0 : Fin 1) l) (fun a => match a with
      | ⟨0, _⟩ => rfl
      | ⟨1, _⟩ => rfl)).trans ?_
    exact extractStridedSlice_apply _ B hs2 (ix2 (0 : Fin 1) l) (ix2 (0 : Fin 1) (⟨128 * k.val + l.val, by omega⟩ : Fin 2048)) (fun a => match a with
      | ⟨0, _⟩ => rfl
      | ⟨1, _⟩ => by show 128 * k.val + l.val = 128 * k.val + l.val; rfl)
  rw [e1, e2]

/-- The first update (columns 0 … 127 of the tile) at an element. -/
theorem neg_upd0_apply (x0 : Vec Ideal S1024x128 .bf16) (X1 : Vec Ideal S2048x128 .bf16) (x3 : Vec Ideal S1x2048 .f32) (acc : Vec Ideal S1024x128 .f32) (r : Fin 1024) (l : Fin 128) :
    k0_pay14 (F := Ideal) x0 X1 x3 acc (ix2 r l) = min (acc (ix2 r l)) (neg_cand (k0_pay9 x0 X1) (k0_pay11 x3) r l 0) := by
  unfold k0_pay14 k0_pay12
  exact neg_step_apply 0 0 (by decide) _ _ _ _ (k0_pay9 x0 X1) (k0_pay11 x3) acc r l
/-- The second update (columns 128 … 255 of the tile) at an element. -/
theorem neg_upd1_apply (x0 : Vec Ideal S1024x128 .bf16) (X1 : Vec Ideal S2048x128 .bf16) (B : FVec Ideal S1x2048 .f32) (acc : Vec Ideal S1024x128 .f32) (r : Fin 1024) (l : Fin 128) :
    k0_pay18 (F := Ideal) B (k0_pay15 x0 X1) acc (ix2 r l) = min (acc (ix2 r l)) (neg_cand (k0_pay9 x0 X1) B r l 1) := by
  unfold k0_pay18 k0_pay15
  exact neg_step_apply 1 128 (by decide) _ _ _ _ (k0_pay9 x0 X1) B acc r l
/-- The third update (columns 256 … 383 of the tile) at an element. -/
theorem neg_upd2_apply (C : FVec Ideal S1024x2048 .f32) (B : FVec Ideal S1x2048 .f32) (acc : Vec Ideal S1024x128 .f32) (r : Fin 1024) (l : Fin 128) :
    k0_pay21 (F := Ideal) C B acc (ix2 r l) = min (acc (ix2 r l)) (neg_cand C B r l 2) := by
  unfold k0_pay21 k0_pay19
  exact neg_step_apply 2 256 (by decide) _ _ _ _ C B acc r l
/-- The fourth update (columns 384 … 511 of the tile) at an element. -/
theorem neg_upd3_apply (C : FVec Ideal S1024x2048 .f32) (B : FVec Ideal S1x2048 .f32) (acc : Vec Ideal S1024x128 .f32) (r : Fin 1024) (l : Fin 128) :
    k0_pay26 (F := Ideal) (k0_pay24 C B) acc (ix2 r l) = min (acc (ix2 r l)) (neg_cand C B r l 3) := by
  unfold k0_pay26 k0_pay24 k0_pay22
  exact neg_step_apply 3 384 (by decide) _ _ _ _ C B acc r l
/-- The fifth update (columns 512 … 639 of the tile) at an element. -/
theorem neg_upd4_apply (C : FVec Ideal S1024x2048 .f32) (B : FVec Ideal S1x2048 .f32) (acc : Vec Ideal S1024x128 .f32) (r : Fin 1024) (l : Fin 128) :
    k0_pay29 (F := Ideal) C B acc (ix2 r l) = min (acc (ix2 r l)) (neg_cand C B r l 4) := by
  unfold k0_pay29 k0_pay27
  exact neg_step_apply 4 512 (by decide) _ _ _ _ C B acc r l
/-- The sixth update (columns 640 … 767 of the tile) at an element. -/
theorem neg_upd5_apply (C : FVec Ideal S1024x2048 .f32) (B : FVec Ideal S1x2048 .f32) (acc : Vec Ideal S1024x128 .f32) (r : Fin 1024) (l : Fin 128) :
    k0_pay33 (F := Ideal) (k0_pay31 C B) acc (ix2 r l) = min (acc (ix2 r l)) (neg_cand C B r l 5) := by
  unfold k0_pay33 k0_pay31 k0_pay30
  exact neg_step_apply 5 640 (by decide) _ _ _ _ C B acc r l
/-- The seventh update (columns 768 … 895 of the tile) at an element. -/
theorem neg_upd6_apply (C : FVec Ideal S1024x2048 .f32) (B : FVec Ideal S1x2048 .f32) (acc : Vec Ideal S1024x128 .f32) (r : Fin 1024) (l : Fin 128) :
    k0_pay36 (F := Ideal) C B acc (ix2 r l) = min (acc (ix2 r l)) (neg_cand C B r l 6) := by
  unfold k0_pay36 k0_pay34
  exact neg_step_apply 6 768 (by decide) _ _ _ _ C B acc r l
/-- The eighth update (columns 896 … 1023 of the tile) at an element. -/
theorem neg_upd7_apply (C : FVec Ideal S1024x2048 .f32) (B : FVec Ideal S1x2048 .f32) (acc : Vec Ideal S1024x128 .f32) (r : Fin 1024) (l : Fin 128) :
    k0_pay40 (F := Ideal) (k0_pay39 C B acc) (ix2 r l) = min (acc (ix2 r l)) (neg_cand C B r l 7) := by
  unfold k0_pay40 k0_pay39 k0_pay37
  exact neg_step_apply 7 896 (by decide) _ _ _ _ C B acc r l
/-- The ninth update (columns 1024 … 1151 of the tile) at an element. -/
theorem neg_upd8_apply (C : FVec Ideal S1024x2048 .f32) (B : FVec Ideal S1x2048 .f32) (acc : Vec Ideal S1024x128 .f32) (r : Fin 1024) (l : Fin 128) :
    k0_pay43 (F := Ideal) C B acc (ix2 r l) = min (acc (ix2 r l)) (neg_cand C B r l 8) := by
  unfold k0_pay43 k0_pay41
  exact neg_step_apply 8 1024 (by decide) _ _ _ _ C B acc r l
/-- The tenth update (columns 1152 … 1279 of the tile) at an element. -/
theorem neg_upd9_apply (C : FVec Ideal S1024x2048 .f32) (B : FVec Ideal S1x2048 .f32) (acc : Vec Ideal S1024x128 .f32) (r : Fin 1024) (l : Fin 128) :
    k0_pay46 (F := Ideal) C B acc (ix2 r l) = min (acc (ix2 r l)) (neg_cand C B r l 9) := by
  unfold k0_pay46 k0_pay44
  exact neg_step_apply 9 1152 (by decide) _ _ _ _ C B acc r l
/-- The eleventh update (columns 1280 … 1407 of the tile) at an element. -/
theorem neg_upd10_apply (C : FVec Ideal S1024x2048 .f32) (B : FVec Ideal S1x2048 .f32) (acc : Vec Ideal S1024x128 .f32) (r : Fin 1024) (l : Fin 128) :
    k0_pay49 (F := Ideal) B (k0_pay47 C) acc (ix2 r l) = min (acc (ix2 r l)) (neg_cand C B r l 10) := by
  unfold k0_pay49 k0_pay47
  exact neg_step_apply 10 1280 (by decide) _ _ _ _ C B acc r l
/-- The twelfth update (columns 1408 … 1535 of the tile) at an element. -/
theorem neg_upd11_apply (C : FVec Ideal S1024x2048 .f32) (B : FVec Ideal S1x2048 .f32) (acc : Vec Ideal S1024x128 .f32) (r : Fin 1024) (l : Fin 128) :
    k0_pay52 (F := Ideal) C B acc (ix2 r l) = min (acc (ix2 r l)) (neg_cand C B r l 11) := by
  unfold k0_pay52 k0_pay50
  exact neg_step_apply 11 1408 (by decide) _ _ _ _ C B acc r l
/-- The thirteenth update (columns 1536 … 1663 of the tile) at an element. -/
theorem neg_upd12_apply (C : FVec Ideal S1024x2048 .f32) (B : FVec Ideal S1x2048 .f32) (acc : Vec Ideal S1024x128 .f32) (r : Fin 1024) (l : Fin 128) :
    k0_pay57 (F := Ideal) (k0_pay55 C B) acc (ix2 r l) = min (acc (ix2 r l)) (neg_cand C B r l 12) := by
  unfold k0_pay57 k0_pay55 k0_pay53
  exact neg_step_apply 12 1536 (by decide) _ _ _ _ C B acc r l
/-- The fourteenth update (columns 1664 … 1791 of the tile) at an element. -/
theorem neg_upd13_apply (C : FVec Ideal S1024x2048 .f32) (B : FVec Ideal S1x2048 .f32) (acc : Vec Ideal S1024x128 .f32) (r : Fin 1024) (l : Fin 128) :
    k0_pay60 (F := Ideal) C B acc (ix2 r l) = min (acc (ix2 r l)) (neg_cand C B r l 13) := by
  unfold k0_pay60 k0_pay58
  exact neg_step_apply 13 1664 (by decide) _ _ _ _ C B acc r l
/-- The fifteenth update (columns 1792 … 1919 of the tile) at an element. -/
theorem neg_upd14_apply (C : FVec Ideal S1024x2048 .f32) (B : FVec Ideal S1x2048 .f32) (acc : Vec Ideal S1024x128 .f32) (r : Fin 1024) (l : Fin 128) :
    k0_pay2 (F := Ideal) (k0_pay62 C B) acc (ix2 r l) = min (acc (ix2 r l)) (neg_cand C B r l 14) := by
  unfold k0_pay2 k0_pay62 k0_pay61
  exact neg_step_apply 14 1792 (by decide) _ _ _ _ C B acc r l
/-- The sixteenth update (columns 1920 … 2047 of the tile) at an element. -/
theorem neg_upd15_apply (C : FVec Ideal S1024x2048 .f32) (B : FVec Ideal S1x2048 .f32) (acc : Vec Ideal S1024x128 .f32) (r : Fin 1024) (l : Fin 128) :
    k0_pay5 (F := Ideal) C B acc (ix2 r l) = min (acc (ix2 r l)) (neg_cand C B r l 15) := by
  unfold k0_pay5 k0_pay3
  exact neg_step_apply 15 1920 (by decide) _ _ _ _ C B acc r l

/-! ## Sixteen updates in a row -/

/-- Sixteen nested minima against a starting value are the minimum of the start and the infimum of the sixteen. -/
theorem neg_min16 (a : EReal) (g : Fin 16 → EReal) :
    min (min (min (min (min (min (min (min (min (min (min (min (min (min (min (min a (g 0)) (g 1)) (g 2)) (g 3)) (g 4)) (g 5)) (g 6)) (g 7)) (g 8)) (g 9)) (g 10)) (g 11)) (g 12)) (g 13)) (g 14)) (g 15)
      = min a (Finset.univ.inf g) := by
  apply le_antisymm
  · refine le_min ?_ (Finset.le_inf fun k _ => ?_)
    · simp only [min_le_iff, le_refl, true_or]
    · fin_cases k <;> simp only [Fin.reduceFinMk, min_le_iff, le_refl, true_or, or_true]
  · have h : ∀ k, min a (Finset.univ.inf g) ≤ g k := fun k => (min_le_right _ _).trans (Finset.inf_le (Finset.mem_univ k))
    have h0 : min a (Finset.univ.inf g) ≤ a := min_le_left _ _
    simp only [le_min_iff, h, h0, and_self]

/-- The tile's sixteen updates of the running minimum, in the kernel's order, from the accumulator `acc`
    (`X1` the tile of the resident candidates, `x3` the negative-class bias tile). -/
def neg_chain (x0 : Vec Ideal S1024x128 .bf16) (X1 : Vec Ideal S2048x128 .bf16) (x3 : Vec Ideal S1x2048 .f32)
    (acc : Vec Ideal S1024x128 .f32) : Vec Ideal S1024x128 .f32 :=
  k0_pay5 (k0_pay9 x0 X1) (k0_pay11 x3) (k0_pay2 (k0_pay62 (k0_pay9 x0 X1) (k0_pay11 x3)) (k0_pay60 (k0_pay9 x0 X1) (k0_pay11 x3) (k0_pay57 (k0_pay55 (k0_pay9 x0 X1) (k0_pay11 x3)) (k0_pay52 (k0_pay9 x0 X1) (k0_pay11 x3) (k0_pay49 (k0_pay11 x3) (k0_pay47 (k0_pay9 x0 X1)) (k0_pay46 (k0_pay9 x0 X1) (k0_pay11 x3) (k0_pay43 (k0_pay9 x0 X1) (k0_pay11 x3) (k0_pay40 (k0_pay39 (k0_pay9 x0 X1) (k0_pay11 x3) (k0_pay36 (k0_pay9 x0 X1) (k0_pay11 x3) (k0_pay33 (k0_pay31 (k0_pay9 x0 X1) (k0_pay11 x3)) (k0_pay29 (k0_pay9 x0 X1) (k0_pay11 x3) (k0_pay26 (k0_pay24 (k0_pay9 x0 X1) (k0_pay11 x3)) (k0_pay21 (k0_pay9 x0 X1) (k0_pay11 x3) (k0_pay18 (k0_pay11 x3) (k0_pay15 x0 X1) (k0_pay14 x0 X1 x3 acc))))))))))))))))

/-- The bias tile is passed through unchanged. -/
theorem neg_bias_eq (x3 : Vec Ideal S1x2048 .f32) : k0_pay11 (F := Ideal) x3 = x3 := shapeCast_self _ _

/-- After the sixteen updates lane `l` of row `r` holds the smaller of what it held and the tile's minimum over the
    columns congruent to `l`; `hX` says which rows of the resident candidates the tile `X1` is. -/
theorem neg_chain_apply (x0 : Vec Ideal S1024x128 .bf16) (x1 : Vec Ideal S8192x128 .bf16) (x3 : Vec Ideal S1x2048 .f32)
    (acc : Vec Ideal S1024x128 .f32) (j : Fin 4) (X1 : Vec Ideal S2048x128 .bf16)
    (hX : ∀ (q : Fin 2048) (k : Fin 128), X1 (ix2 q k) = x1 (ix2 (⟨2048 * j.val + q.val, by omega⟩ : Fin 8192) k))
    (r : Fin 1024) (l : Fin 128) :
    neg_chain x0 X1 x3 acc (ix2 r l) = min (acc (ix2 r l)) (tileNeg x0 x1 x3 j r l) := by
  unfold neg_chain
  simp only [neg_upd15_apply, neg_upd14_apply, neg_upd13_apply, neg_upd12_apply, neg_upd11_apply, neg_upd10_apply, neg_upd9_apply, neg_upd8_apply,
    neg_upd7_apply, neg_upd6_apply, neg_upd5_apply, neg_upd4_apply, neg_upd3_apply, neg_upd2_apply, neg_upd1_apply, neg_upd0_apply]
  rw [neg_min16]
  congr 1
  unfold tileNeg
  refine Finset.inf_congr rfl fun k _ => ?_
  unfold neg_cand
  rw [neg_tile_apply, neg_bias_eq]
  congr 1
  unfold tileCross
  exact Finset.sum_congr rfl fun kk _ => by rw [hX]

/-- The tile of the resident candidates the point at grid column `j` loads: rows `2048·j …`. -/
theorem neg_ld_rows (x1 : Vec Ideal S8192x128 .bf16) (i : grid0.Coords) (j : Fin 4) (hj : (i 1).val = j.val)
    (inb : ∀ a, k0_off1 i a + S2048x128.size a ≤ S8192x128.size a) (q : Fin 2048) (k : Fin 128) :
    View.ld x1 (Rect.unit (s := S8192x128) (k0_off1 i) S2048x128.size inb) (ix2 q k)
      = x1 (ix2 (⟨2048 * j.val + q.val, by omega⟩ : Fin 8192) k) := by
  show x1 _ = x1 _
  refine congrArg x1 (funext fun a => Fin.ext ?_)
  have hoff : k0_off1 i = ![2048 * (i 1).val, 0] := k0_off1_eq i
  match a with
  | ⟨0, _⟩ =>
    show k0_off1 i 0 + 1 * q.val = 2048 * j.val + q.val
    rw [hoff, ← hj]
    show 2048 * (i 1).val + 1 * q.val = _
    omega
  | ⟨1, _⟩ =>
    show k0_off1 i 1 + 1 * k.val = k.val
    rw [hoff]
    show 0 + 1 * k.val = k.val
    omega

/-- The reset value of the running minimum is +∞ everywhere. -/
theorem neg_reset_apply (y : S1024x128.Idx) : k0_pay8 (F := Ideal) y = ⊤ := by
  unfold k0_pay8
  rw [shapeCast_self]
  show Ideal.ofBits .f32 0x7F800000#32 = ⊤
  simp [Ideal.ofBits, Ideal.ieee]

theorem negA_apply (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec Ideal S1024x128 .bf16) (x1 : Vec Ideal S8192x128 .bf16) (x2 : Vec Ideal S1x2048 .f32) (x3 : Vec Ideal S1x2048 .f32) (x4 : Vec Ideal S1024x1 .f32) (j : Fin 4) (hj : (i 1).val = j.val) (r : Fin 1024) (l : Fin 128) :
    sout0_A_1 (F := Ideal) c i arg2 harg2 arg3 harg3 arg4 harg4 arg5 harg5 arg6 harg6 arg7 harg7 arg8 harg8 arg9 harg9 hc0 hc1 x0 x1 x2 x3 x4 (ix2 r l) = tileNeg x0 x1 x3 j r l := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x128) neg_zeroOff]
  simp only [View.readAt_eq_ld, harg2.read_unread, harg3.read_unread, harg4.read_unread, harg5.read_unread, harg6.read_unread, harg8.read_unread, harg9.read_unread, View.readCov_cons_toLoadRect, View.ld_unit_zero (S := S1024x128) neg_zeroOff, View.ld_unit_zero (S := S1x2048) neg_zeroOff]
  refine (neg_chain_apply x0 x1 x3 (k0_pay8 (F := Ideal)) j _ (neg_ld_rows x1 i j hj _) r l).trans ?_
  rw [neg_reset_apply]
  exact min_eq_right le_top

theorem negB_apply (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec Ideal S1024x128 .bf16) (x1 : Vec Ideal S8192x128 .bf16) (x2 : Vec Ideal S1x2048 .f32) (x3 : Vec Ideal S1x2048 .f32) (x4 : Vec Ideal S1024x1 .f32) (xs0 : Vec Ideal S1024x128 .f32) (xs1 : Vec Ideal S1024x128 .f32) (j : Fin 4) (hj : (i 1).val = j.val) (r : Fin 1024) (l : Fin 128) :
    sout0_B_1 (F := Ideal) c i arg2 harg2 arg3 harg3 arg4 harg4 arg5 harg5 arg6 harg6 arg7 harg7 arg8 harg8 arg9 harg9 hc0 hc1 x0 x1 x2 x3 x4 xs0 xs1 (ix2 r l) = min (xs1 (ix2 r l)) (tileNeg x0 x1 x3 j r l) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_cons_unit_zero (S := S1024x128) neg_zeroOff]
  simp only [View.readAt_eq_ld, harg2.read_unread, harg3.read_unread, harg4.read_unread, harg5.read_unread, harg6.read_unread, harg8.read_unread, harg9.read_unread, View.readCov_cons_toLoadRect, View.ld_unit_zero (S := S1024x128) neg_zeroOff, View.ld_unit_zero (S := S1x2048) neg_zeroOff]
  exact neg_chain_apply x0 x1 x3 xs1 j _ (neg_ld_rows x1 i j hj _) r l

theorem negC_apply (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec Ideal S1024x128 .bf16) (x1 : Vec Ideal S8192x128 .bf16) (x2 : Vec Ideal S1x2048 .f32) (x3 : Vec Ideal S1x2048 .f32) (x4 : Vec Ideal S1024x1 .f32) (xs0 : Vec Ideal S1024x128 .f32) (xs1 : Vec Ideal S1024x128 .f32) (j : Fin 4) (hj : (i 1).val = j.val) (r : Fin 1024) (l : Fin 128) :
    sout0_C_1 (F := Ideal) c i arg2 harg2 arg3 harg3 arg4 harg4 arg5 harg5 arg6 harg6 arg7 harg7 arg8 harg8 arg9 harg9 hc0 hc1 x0 x1 x2 x3 x4 xs0 xs1 (ix2 r l) = min (xs1 (ix2 r l)) (tileNeg x0 x1 x3 j r l) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1024x128) neg_zeroOff]
  simp only [View.readAt_eq_ld, harg2.read_unread, harg3.read_unread, harg4.read_unread, harg5.read_unread, harg6.read_unread, harg8.read_unread, harg9.read_unread, View.readCov_cons_toLoadRect, View.ld_unit_zero (S := S1024x128) neg_zeroOff, View.ld_unit_zero (S := S1x2048) neg_zeroOff]
  exact neg_chain_apply x0 x1 x3 xs1 j _ (neg_ld_rows x1 i j hj _) r l

end Cert.KernelIdeal.Mined

end
-- ==== Proof.KPieceOut.lean ====
/-
  What the last tile of a row block writes to the output block, read at one element at the extended reals: the
  finalize step applied to the two accumulators AFTER this tile's update and to the row-term block.

  Road. For any float model, the output block of the last tile is the finalize payload applied to the row-term block and
  to the two accumulators as this same tile leaves them: the stores cover each buffer whole, so each buffer reads back its
  last payload, and the finalize step's loads of the accumulators read the payloads just stored. At the extended reals the
  payload at row r is read operation by operation: the lane reduction of a running maximum from −∞ is the maximum over the
  128 lanes, that of a running minimum from +∞ the minimum; the casts [1024] → [1024,1] and [1024,1] → [1024,1] keep row
  r; the zero and margin literals are 0 and the margin.
-/
import proofs.«420582_j30227979829905_3_alg».proof.Proof.Gen.KernelIdeal.Frame
import proofs.«420582_j30227979829905_3_alg».proof.Proof.KTile
import proofs.«420582_j30227979829905_3_alg».proof.Proof.KPiecesPos
import proofs.«420582_j30227979829905_3_alg».proof.Proof.KPiecesNeg
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Mined

open Cert.KernelIdeal Cert.KernelIdeal.Gen Cert.Triplet
open Idealize.ShloMosaic Idealize.ShloMosaic.TcCoe Idealize.SL.Sem Idealize.ShloMosaic.ValueIdx
open Idealize.ShloMosaic.Pipeline (Dat)

/-! ## The output block is the finalize payload of the updated accumulators (any float model) -/

private theorem outp_hz : (![0, 0] : Fin 2 → Nat) = fun _ => 0 := funext fun a => by fin_cases a <;> rfl

/-- Each of the three buffers is stored whole, last, by one payload; the output's payload is the finalize arithmetic over
    the loads of the two accumulators, which read the payloads stored just before. -/
private theorem outp_open {F : FTy → Type} [FloatOps F] (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .bf16) (x1 : Vec F S8192x128 .bf16) (x2 : Vec F S1x2048 .f32) (x3 : Vec F S1x2048 .f32) (x4 : Vec F S1024x1 .f32) (xs0 : Vec F S1024x128 .f32) (xs1 : Vec F S1024x128 .f32) :
    out0_C_5 c i arg2 harg2 arg3 harg3 arg4 harg4 arg5 harg5 arg6 harg6 arg7 harg7 arg8 harg8 arg9 harg9 hc0 hc1 x0 x1 x2 x3 x4 xs0 xs1 = k0_pay6 x4 (sout0_C_0 c i arg2 harg2 arg3 harg3 arg4 harg4 arg5 harg5 arg6 harg6 arg7 harg7 arg8 harg8 arg9 harg9 hc0 hc1 x0 x1 x2 x3 x4 xs0 xs1) (sout0_C_1 c i arg2 harg2 arg3 harg3 arg4 harg4 arg5 harg5 arg6 harg6 arg7 harg7 arg8 harg8 arg9 harg9 hc0 hc1 x0 x1 x2 x3 x4 xs0 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1024x1) outp_hz]
  simp only [View.readAt_eq_ld, harg2.read_unread, harg3.read_unread, harg4.read_unread, harg5.read_unread, harg6.read_unread, harg7.read_unread, harg8.read_unread, harg9.read_unread, View.readCov_cons_toLoadRect, View.ld_unit_zero (S := S1024x128) outp_hz, View.ld_unit_zero (S := S1x2048) outp_hz, View.ld_unit_zero (S := S1024x1) outp_hz]
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1024x128) outp_hz]
  simp only [View.readAt_eq_ld, harg2.read_unread, harg3.read_unread, harg4.read_unread, harg5.read_unread, harg6.read_unread, harg7.read_unread, harg8.read_unread, harg9.read_unread, View.readCov_cons_toLoadRect, View.ld_unit_zero (S := S1024x128) outp_hz, View.ld_unit_zero (S := S1x2048) outp_hz, View.ld_unit_zero (S := S1024x1) outp_hz]
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1024x128) outp_hz]
  simp only [View.readAt_eq_ld, harg2.read_unread, harg3.read_unread, harg4.read_unread, harg5.read_unread, harg6.read_unread, harg7.read_unread, harg8.read_unread, harg9.read_unread, View.readCov_cons_toLoadRect, View.ld_unit_zero (S := S1024x128) outp_hz, View.ld_unit_zero (S := S1x2048) outp_hz, View.ld_unit_zero (S := S1024x1) outp_hz]

/-! ## The finalize payload read at one row, at the extended reals -/

/-- The two initial values of the lane reductions are −∞ and +∞. -/
private theorem outp_ofBits_negInf : FloatOps.ofBits (F := Ideal) .f32 0xFF800000#32 = (⊥ : EReal) := by
  show Ideal.ofBits .f32 0xFF800000#32 = ⊥
  simp [Ideal.ofBits, Ideal.ieee]
private theorem outp_ofBits_posInf : FloatOps.ofBits (F := Ideal) .f32 0x7F800000#32 = (⊤ : EReal) := by
  show Ideal.ofBits .f32 0x7F800000#32 = ⊤
  simp [Ideal.ofBits, Ideal.ieee]

/-- A fold of max from −∞ is the maximum over the index set; a fold of min from +∞ the minimum. -/
private theorem outp_fold_max {n : ℕ} (b : EReal) (hb : b = ⊥) (f g : Fin n → EReal) (hfg : f = g) :
    (Finset.univ : Finset (Fin n)).fold max b f = Finset.univ.sup g := by subst hb hfg; rfl
private theorem outp_fold_min {n : ℕ} (b : EReal) (hb : b = ⊤) (f g : Fin n → EReal) (hfg : f = g) :
    (Finset.univ : Finset (Fin n)).fold min b f = Finset.univ.inf g := by subst hb hfg; rfl

/-- Row r with lane l inserted on the reduced axis is the index (r, l). -/
private theorem outp_lift_eq (r : Fin 1024) (l : Fin 128) : reduces_S1024x128_S1024.lift (ix1 r) l = ix2 r l :=
  funext fun a => by fin_cases a <;> rfl

/-- The lane reduction of a running maximum, at row r: the maximum over the 128 lanes. -/
private theorem outp_laneMax (v : Vec Ideal S1024x128 .f32) (r : Fin 1024) :
    multiReduction (F := Ideal) .maximumf [1] S1024 v 0xFF800000#32 reduces_S1024x128_S1024 (.inl rfl) rfl (ix1 r)
      = Finset.univ.sup fun l : Fin 128 => v (ix2 r l) := by
  refine (Ideal.multiReduction_maximumf_single v _ reduces_S1024x128_S1024 _ _ (ix1 r)).trans ?_
  exact outp_fold_max _ outp_ofBits_negInf _ _ (funext fun l => congrArg v (outp_lift_eq r l))

/-- The lane reduction of a running minimum, at row r: the minimum over the 128 lanes. -/
private theorem outp_laneMin (v : Vec Ideal S1024x128 .f32) (r : Fin 1024) :
    multiReduction (F := Ideal) .minimumf [1] S1024 v 0x7F800000#32 reduces_S1024x128_S1024 (.inl rfl) rfl (ix1 r)
      = Finset.univ.inf fun l : Fin 128 => v (ix2 r l) := by
  refine (multiReduction_minimumf_eq_fold (F := Ideal) v _ reduces_S1024x128_S1024 _ _ (ix1 r)).trans ?_
  refine (reduces_S1024x128_S1024.fold_filter_drop_single _ _ v (ix1 r)).trans ?_
  exact outp_fold_min _ outp_ofBits_posInf _ _ (funext fun l => congrArg v (outp_lift_eq r l))

/-- A [1024] vector viewed [1024, 1] reads row r at (r, 0): the same row-major position. -/
private theorem outp_cast_col (v : FVec Ideal S1024 .f32) (r : Fin 1024) :
    shapeCast S1024x1 v shapeCasts_S1024_S1024x1 (ix2 r (0 : Fin 1)) = v (ix1 r) :=
  shapeCast_apply v shapeCasts_S1024_S1024x1 (ix2 r (0 : Fin 1)) (ix1 r) (by
    rw [Shape.rowMajor_val_one, Shape.rowMajor_val_two]; show r.val = r.val * 1 + 0; omega)

/-- The shape of the finalize arithmetic on one row, with each operand replaced by what it is read to be. -/
private theorem outp_form {p n rc rc' z m : EReal} (P N : Fin 128 → EReal) (hp : p = Finset.univ.sup P)
    (hn : n = Finset.univ.inf N) (hrc : rc = rc') (hz : z = 0) (hm : m = margin) :
    max ((Ideal.sqrt (max (p + rc) z) - Ideal.sqrt (max (n + rc) z)) + m) z = finalize P N rc' := by
  subst hp hn hrc hz hm; rfl

/-- The zero and margin literals, and the vector root read at an index. -/
private theorem outp_zero : FloatOps.ofBits (F := Ideal) .f32 0x00000000#32 = (0 : EReal) := Ideal.ofBits_zero_f32
private theorem outp_margin : FloatOps.ofBits (F := Ideal) .f32 0x3E4CCCCD#32 = margin := rfl
private theorem outp_sqrt_apply {s : Shape} {φ : FTy} (a : FVec Ideal s φ) (i : s.Idx) :
    Idealize.ShloMosaic.sqrt a i = Ideal.sqrt (a i) := rfl

/-- The finalize payload at row r: the hinge of the two accumulator rows and of the row term. -/
private theorem outp_pay6_apply (v290 : Vec Ideal S1024x1 .f32) (v292 v295 : Vec Ideal S1024x128 .f32) (r : Fin 1024) :
    k0_pay6 (F := Ideal) v290 v292 v295 (ix2 r (0 : Fin 1))
      = finalize (fun l => v292 (ix2 r l)) (fun l => v295 (ix2 r l)) (v290 (ix2 r (0 : Fin 1))) := by
  have hP := (outp_cast_col _ r).trans (outp_laneMax v292 r)
  have hN := (outp_cast_col _ r).trans (outp_laneMin v295 r)
  have h1 := congrFun (shapeCast_self v290 shapeCasts_S1024x1_S1024x1) (ix2 r (0 : Fin 1))
  have key := outp_form (fun l => v292 (ix2 r l)) (fun l => v295 (ix2 r l)) hP hN h1 outp_zero outp_margin
  unfold k0_pay6
  simp only [maximumf_apply, addf_apply, subf_apply, broadcast_apply, outp_sqrt_apply]
  exact key

/-- The output block's row `r` after the last tile: the hinge of the updated accumulators' rows and the row term. -/
theorem outC_apply (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec Ideal S1024x128 .bf16) (x1 : Vec Ideal S8192x128 .bf16) (x2 : Vec Ideal S1x2048 .f32) (x3 : Vec Ideal S1x2048 .f32) (x4 : Vec Ideal S1024x1 .f32) (xs0 : Vec Ideal S1024x128 .f32) (xs1 : Vec Ideal S1024x128 .f32) (j : Fin 4) (hj : (i 1).val = j.val) (r : Fin 1024) :
    out0_C_5 (F := Ideal) c i arg2 harg2 arg3 harg3 arg4 harg4 arg5 harg5 arg6 harg6 arg7 harg7 arg8 harg8 arg9 harg9 hc0 hc1 x0 x1 x2 x3 x4 xs0 xs1 (ix2 r (0 : Fin 1))
      = finalize (fun l => max (xs0 (ix2 r l)) (tilePos x0 x1 x2 j r l))
                 (fun l => min (xs1 (ix2 r l)) (tileNeg x0 x1 x3 j r l)) (x4 (ix2 r (0 : Fin 1))) := by
  refine (congrFun (outp_open (F := Ideal) c i arg2 harg2 arg3 harg3 arg4 harg4 arg5 harg5 arg6 harg6 arg7 harg7 arg8 harg8 arg9 harg9 hc0 hc1 x0 x1 x2 x3 x4 xs0 xs1) (ix2 r (0 : Fin 1))).trans ?_
  refine (outp_pay6_apply x4 (sout0_C_0 (F := Ideal) c i arg2 harg2 arg3 harg3 arg4 harg4 arg5 harg5 arg6 harg6 arg7 harg7 arg8 harg8 arg9 harg9 hc0 hc1 x0 x1 x2 x3 x4 xs0 xs1) (sout0_C_1 (F := Ideal) c i arg2 harg2 arg3 harg3 arg4 harg4 arg5 harg5 arg6 harg6 arg7 harg7 arg8 harg8 arg9 harg9 hc0 hc1 x0 x1 x2 x3 x4 xs0 xs1) r).trans ?_
  have eP : (fun l : Fin 128 => sout0_C_0 (F := Ideal) c i arg2 harg2 arg3 harg3 arg4 harg4 arg5 harg5 arg6 harg6 arg7 harg7 arg8 harg8 arg9 harg9 hc0 hc1 x0 x1 x2 x3 x4 xs0 xs1 (ix2 r l))
      = fun l => max (xs0 (ix2 r l)) (tilePos x0 x1 x2 j r l) :=
    funext fun l => posC_apply c i arg2 harg2 arg3 harg3 arg4 harg4 arg5 harg5 arg6 harg6 arg7 harg7 arg8 harg8 arg9 harg9 hc0 hc1 x0 x1 x2 x3 x4 xs0 xs1 j hj r l
  have eN : (fun l : Fin 128 => sout0_C_1 (F := Ideal) c i arg2 harg2 arg3 harg3 arg4 harg4 arg5 harg5 arg6 harg6 arg7 harg7 arg8 harg8 arg9 harg9 hc0 hc1 x0 x1 x2 x3 x4 xs0 xs1 (ix2 r l))
      = fun l => min (xs1 (ix2 r l)) (tileNeg x0 x1 x3 j r l) :=
    funext fun l => negC_apply c i arg2 harg2 arg3 harg3 arg4 harg4 arg5 harg5 arg6 harg6 arg7 harg7 arg8 harg8 arg9 harg9 hc0 hc1 x0 x1 x2 x3 x4 xs0 xs1 j hj r l
  exact congrArg₂ (fun P N : Fin 128 → EReal => finalize P N (x4 (ix2 r (0 : Fin 1)))) eP eN

end Cert.KernelIdeal.Mined

end
-- ==== Proof.KInvariant.lean ====
/-
  What the two accumulators and the output block hold after each grid point, at the extended reals. Point
  t = 4·I + J is tile J of row block I. By induction on J within a row block: after the point, lane l of row r of the
  running maximum is the maximum of `cross + positive bias` over the candidates below column 2048·(J + 1) congruent
  to l modulo 128 (anchor 1024·I + r), likewise the running minimum; and at J = 3 the output block's row r is the
  anchor's hinge.
-/
import proofs.«420582_j30227979829905_3_alg».proof.Proof.Gen.KernelIdeal.Frame
import proofs.«420582_j30227979829905_3_alg».proof.Proof.KBlocks
import proofs.«420582_j30227979829905_3_alg».proof.Proof.KPart
import proofs.«420582_j30227979829905_3_alg».proof.Proof.KJoin
import proofs.«420582_j30227979829905_3_alg».proof.Proof.KTile
import proofs.«420582_j30227979829905_3_alg».proof.Proof.KPiecesPos
import proofs.«420582_j30227979829905_3_alg».proof.Proof.KPiecesNeg
import proofs.«420582_j30227979829905_3_alg».proof.Proof.KPieceOut
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Mined

open Cert.KernelIdeal Cert.KernelIdeal.Gen Cert.Triplet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The second grid coordinate of point `t` is its tile `t % 4` (decided over the 32 points). -/
theorem inv_coord_tile : ∀ t : Fin cfg0.N, ((grid0.coords t) 1).val = t.val % 4 :=
  (by decide +kernel : ∀ t : Fin grid0.N, ((grid0.coords t) 1).val = t.val % 4)

/-- Tile `J` of row block `I`, read over the blocks of point `t = 4·I + J`: lane `l` of row `r` collects
    `cross + positive bias` of anchor `1024·I + r` against the candidates `2048·J + 128·k + l`. -/
theorem inv_tilePos_blk (c : Dev nD) (t : Fin cfg0.N) (I : Fin 8) (J : Fin 4) (ht : t.val = 4 * I.val + J.val) (r : Fin 1024) (l : Fin 128) :
    tilePos (blkE1 m c t) (blkE2 m c t) (blkPos m c t) J r l
      = Finset.univ.sup fun k : Fin 16 =>
          (fun j : Fin 8192 => cross (E1 m c) (E2 m c) (⟨1024 * I.val + r.val, by omega⟩ : Fin 8192) j + posBias (E2 m c) (TG m c) j)
            (⟨2048 * J.val + (128 * k.val + l.val), by omega⟩ : Fin 8192) := by
  unfold tilePos tileCross
  refine Finset.sup_congr rfl fun k _ => ?_
  rw [blkPos_apply m c t J (by omega) (⟨128 * k.val + l.val, by omega⟩ : Fin 2048)]
  refine congrArg₂ (· + ·) ?_ rfl
  unfold cross
  refine Finset.sum_congr rfl fun k' _ => ?_
  rw [blkE1_apply m c t I (by omega) r k', blkE2_apply m c t _ k']

/-- The same for the running minimum, with the negative bias. -/
theorem inv_tileNeg_blk (c : Dev nD) (t : Fin cfg0.N) (I : Fin 8) (J : Fin 4) (ht : t.val = 4 * I.val + J.val) (r : Fin 1024) (l : Fin 128) :
    tileNeg (blkE1 m c t) (blkE2 m c t) (blkNeg m c t) J r l
      = Finset.univ.inf fun k : Fin 16 =>
          (fun j : Fin 8192 => cross (E1 m c) (E2 m c) (⟨1024 * I.val + r.val, by omega⟩ : Fin 8192) j + negBias (E2 m c) (TG m c) j)
            (⟨2048 * J.val + (128 * k.val + l.val), by omega⟩ : Fin 8192) := by
  unfold tileNeg tileCross
  refine Finset.inf_congr rfl fun k _ => ?_
  rw [blkNeg_apply m c t J (by omega) (⟨128 * k.val + l.val, by omega⟩ : Fin 2048)]
  refine congrArg₂ (· + ·) ?_ rfl
  unfold cross
  refine Finset.sum_congr rfl fun k' _ => ?_
  rw [blkE1_apply m c t I (by omega) r k', blkE2_apply m c t _ k']

/-- The running maximum after point `t = 4·I + J`, by induction on the tile `J` within the row block: the first tile
    starts from −∞ (an empty lane), every later tile joins its 16 chunks to what the tile before left. -/
theorem inv_accPos_aux (c : Dev nD) : ∀ (J : ℕ) (hJ : J < 4) (t : Fin cfg0.N) (I : Fin 8) (ht : t.val = 4 * I.val + J) (r : Fin 1024) (l : Fin 128),
    ((outsAt0 m c t.val t.isLt).2.1 : Vec Ideal S1024x128 .f32) (ix2 r l)
      = partPos (E1 m c) (E2 m c) (TG m c) (⟨1024 * I.val + r.val, by omega⟩ : Fin 8192) (2048 * (J + 1)) l
  | 0, hJ, t, I, ht, r, l => by
    have h0 : t.val % 4 = 0 := by omega
    have h1 : ¬t.val % 4 = 3 := by omega
    rw [outsAt0_A m c t h0 h1]
    dsimp only
    rw [posA_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (⟨0, hJ⟩ : Fin 4) (by rw [inv_coord_tile t]; exact h0) r l]
    refine (inv_tilePos_blk m c t I (⟨0, hJ⟩ : Fin 4) ht r l).trans ?_
    refine Eq.trans ?_ (lane_sup_step _ (⟨0, hJ⟩ : Fin 4) l)
    rw [show laneBelow (2048 * (⟨0, hJ⟩ : Fin 4).val) l = ∅ from laneBelow_zero l, Finset.sup_empty]
    exact (max_bot_left _).symm
  | J + 1, hJ, t, I, ht, r, l => by
    have h0 : ¬t.val % 4 = 0 := by omega
    have hlt : t.val - 1 < cfg0.N := Nat.lt_of_le_of_lt (Nat.sub_le _ _) t.isLt
    have ih := inv_accPos_aux c J (by omega) (⟨t.val - 1, hlt⟩ : Fin cfg0.N) I (by simp only; omega) r l
    by_cases h1 : t.val % 4 = 3
    · rw [outsAt0_C m c t h0 h1]
      dsimp only
      rw [posC_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (⟨J + 1, hJ⟩ : Fin 4) (by rw [inv_coord_tile t]; simp only; omega) r l]
      exact (congrArg₂ max ih (inv_tilePos_blk m c t I (⟨J + 1, hJ⟩ : Fin 4) ht r l)).trans (lane_sup_step _ (⟨J + 1, hJ⟩ : Fin 4) l)
    · rw [outsAt0_B m c t h0 h1]
      dsimp only
      rw [posB_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (⟨J + 1, hJ⟩ : Fin 4) (by rw [inv_coord_tile t]; simp only; omega) r l]
      exact (congrArg₂ max ih (inv_tilePos_blk m c t I (⟨J + 1, hJ⟩ : Fin 4) ht r l)).trans (lane_sup_step _ (⟨J + 1, hJ⟩ : Fin 4) l)

/-- The running minimum after point `t = 4·I + J`, by induction on the tile `J` within the row block: the first tile
    starts from +∞ (an empty lane), every later tile joins its 16 chunks to what the tile before left. -/
theorem inv_accNeg_aux (c : Dev nD) : ∀ (J : ℕ) (hJ : J < 4) (t : Fin cfg0.N) (I : Fin 8) (ht : t.val = 4 * I.val + J) (r : Fin 1024) (l : Fin 128),
    ((outsAt0 m c t.val t.isLt).2.2 : Vec Ideal S1024x128 .f32) (ix2 r l)
      = partNeg (E1 m c) (E2 m c) (TG m c) (⟨1024 * I.val + r.val, by omega⟩ : Fin 8192) (2048 * (J + 1)) l
  | 0, hJ, t, I, ht, r, l => by
    have h0 : t.val % 4 = 0 := by omega
    have h1 : ¬t.val % 4 = 3 := by omega
    rw [outsAt0_A m c t h0 h1]
    dsimp only
    rw [negA_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (⟨0, hJ⟩ : Fin 4) (by rw [inv_coord_tile t]; exact h0) r l]
    refine (inv_tileNeg_blk m c t I (⟨0, hJ⟩ : Fin 4) ht r l).trans ?_
    refine Eq.trans ?_ (lane_inf_step _ (⟨0, hJ⟩ : Fin 4) l)
    rw [show laneBelow (2048 * (⟨0, hJ⟩ : Fin 4).val) l = ∅ from laneBelow_zero l, Finset.inf_empty]
    exact (min_top_left _).symm
  | J + 1, hJ, t, I, ht, r, l => by
    have h0 : ¬t.val % 4 = 0 := by omega
    have hlt : t.val - 1 < cfg0.N := Nat.lt_of_le_of_lt (Nat.sub_le _ _) t.isLt
    have ih := inv_accNeg_aux c J (by omega) (⟨t.val - 1, hlt⟩ : Fin cfg0.N) I (by simp only; omega) r l
    by_cases h1 : t.val % 4 = 3
    · rw [outsAt0_C m c t h0 h1]
      dsimp only
      rw [negC_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (⟨J + 1, hJ⟩ : Fin 4) (by rw [inv_coord_tile t]; simp only; omega) r l]
      exact (congrArg₂ min ih (inv_tileNeg_blk m c t I (⟨J + 1, hJ⟩ : Fin 4) ht r l)).trans (lane_inf_step _ (⟨J + 1, hJ⟩ : Fin 4) l)
    · rw [outsAt0_B m c t h0 h1]
      dsimp only
      rw [negB_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (⟨J + 1, hJ⟩ : Fin 4) (by rw [inv_coord_tile t]; simp only; omega) r l]
      exact (congrArg₂ min ih (inv_tileNeg_blk m c t I (⟨J + 1, hJ⟩ : Fin 4) ht r l)).trans (lane_inf_step _ (⟨J + 1, hJ⟩ : Fin 4) l)

/-- The finalize step depends only on the values of its three arguments. -/
theorem inv_finalize_congr {P P' N N' : Fin 128 → EReal} {rc rc' : EReal} (hP : ∀ l, P l = P' l) (hN : ∀ l, N l = N' l)
    (hr : rc = rc') : finalize P N rc = finalize P' N' rc' := by
  rw [funext hP, funext hN, hr]

/-- Finalizing the lanes' extrema over all the candidates gives the anchor's hinge: the maximum (minimum) over the 128
    lanes is the mined maximum (minimum), and the rest of `finalize` is `minedHinge` verbatim. -/
theorem inv_finalize_part (e1 e2 : Emb) (tgt : Lab) (i : Fin 8192) :
    finalize (fun l => partPos e1 e2 tgt i 8192 l) (fun l => partNeg e1 e2 tgt i 8192 l) (rowTerm e1 i)
      = minedHinge e1 e2 tgt i := by
  have hP : (fun l => partPos e1 e2 tgt i 8192 l)
      = fun l : Fin 128 => (laneBelow 8192 l).sup fun j => cross e1 e2 i j + posBias e2 tgt j := rfl
  have hN : (fun l => partNeg e1 e2 tgt i 8192 l)
      = fun l : Fin 128 => (laneBelow 8192 l).inf fun j => cross e1 e2 i j + negBias e2 tgt j := rfl
  unfold finalize minedHinge minedPos minedNeg
  rw [hP, hN, lanes_sup_all, lanes_inf_all]

/-- The running maximum after point `t = 4·I + J`. -/
theorem accPos_apply (c : Dev nD) (t : Fin cfg0.N) (I : Fin 8) (J : Fin 4) (ht : t.val = 4 * I.val + J.val) (r : Fin 1024) (l : Fin 128) :
    ((outsAt0 m c t.val t.isLt).2.1 : Vec Ideal S1024x128 .f32) (ix2 r l)
      = partPos (E1 m c) (E2 m c) (TG m c) (⟨1024 * I.val + r.val, by omega⟩ : Fin 8192) (2048 * (J.val + 1)) l :=
  inv_accPos_aux m c J.val J.isLt t I ht r l

/-- The running minimum after point `t = 4·I + J`. -/
theorem accNeg_apply (c : Dev nD) (t : Fin cfg0.N) (I : Fin 8) (J : Fin 4) (ht : t.val = 4 * I.val + J.val) (r : Fin 1024) (l : Fin 128) :
    ((outsAt0 m c t.val t.isLt).2.2 : Vec Ideal S1024x128 .f32) (ix2 r l)
      = partNeg (E1 m c) (E2 m c) (TG m c) (⟨1024 * I.val + r.val, by omega⟩ : Fin 8192) (2048 * (J.val + 1)) l :=
  inv_accNeg_aux m c J.val J.isLt t I ht r l

/-- The output block after the last tile of row block `I`: the hinge of each of its anchors. -/
theorem out_apply (c : Dev nD) (t : Fin cfg0.N) (I : Fin 8) (ht : t.val = 4 * I.val + 3) (r : Fin 1024) :
    ((outsAt0 m c t.val t.isLt).1 : Vec Ideal S1024x1 .f32) (ix2 r (0 : Fin 1))
      = minedHinge (E1 m c) (E2 m c) (TG m c) (⟨1024 * I.val + r.val, by omega⟩ : Fin 8192) := by
  have h0 : ¬t.val % 4 = 0 := by omega
  have h1 : t.val % 4 = 3 := by omega
  have hlt : t.val - 1 < cfg0.N := Nat.lt_of_le_of_lt (Nat.sub_le _ _) t.isLt
  have h3 : (3 : ℕ) < 4 := by omega
  rw [outsAt0_C m c t h0 h1]
  dsimp only
  rw [outC_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (⟨3, h3⟩ : Fin 4) (by rw [inv_coord_tile t]; exact h1) r]
  refine (inv_finalize_congr
    (fun l => (congrArg₂ max (inv_accPos_aux m c 2 (by omega) (⟨t.val - 1, hlt⟩ : Fin cfg0.N) I (by simp only; omega) r l)
      (inv_tilePos_blk m c t I (⟨3, h3⟩ : Fin 4) ht r l)).trans (lane_sup_step _ (⟨3, h3⟩ : Fin 4) l))
    (fun l => (congrArg₂ min (inv_accNeg_aux m c 2 (by omega) (⟨t.val - 1, hlt⟩ : Fin cfg0.N) I (by simp only; omega) r l)
      (inv_tileNeg_blk m c t I (⟨3, h3⟩ : Fin 4) ht r l)).trans (lane_inf_step _ (⟨3, h3⟩ : Fin 4) l))
    (blkRow_apply m c t I (by omega) r)).trans ?_
  exact inv_finalize_part (E1 m c) (E2 m c) (TG m c) _

end Cert.KernelIdeal.Mined

end
-- ==== Proof.KFinal.lean ====
/-
  The per-anchor result array after the region: the output window is written back only after the last tile of each
  row block, its eight blocks tile the [8192, 1] array, and block I holds the hinges of anchors 1024·I … 1024·I + 1023.
-/
import proofs.«420582_j30227979829905_3_alg».proof.Proof.Gen.KernelIdeal.Frame
import proofs.«420582_j30227979829905_3_alg».proof.Proof.KBlocks
import proofs.«420582_j30227979829905_3_alg».proof.Proof.KInvariant
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Mined

open Cert.KernelIdeal Cert.KernelIdeal.Gen Cert.Triplet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The column of per-anchor hinges. -/
def hingeCol (c : Dev nD) : Buf (Elt Ideal) ((c : Thread nD τ).loc main_v27) :=
  fun idx => minedHinge (E1 m c) (E2 m c) (TG m c) (⟨(idx 0).val, idx2_lt0 idx⟩ : Fin 8192)

/-- The output window's block index at grid point `t`: row block `t / 4`, the one column block. -/
theorem fin_out_index : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- What a point that writes the output block back writes: that block of the column of hinges. A point writes back
    exactly when it is the last tile `4·I + 3` of a row block `I`; the block's row `r` is then anchor `1024·I + r`'s
    hinge, and it sits in the array at row `1024·I + r`. -/
theorem fin_flushed_hinge (c : Dev nD) (t : Fin cfg0.N) (hf : (cfg0.win 5).flush t = true) :
    (dats m 0 c).flushed 5 t = ((cfg0.win 5).blk t).view.read (Elt Ideal) (hingeCol m c) := by
  have hN : cfg0.N = 32 := N_0
  have h3 : t.val % 4 = 3 := (flush0_5 t).mp hf
  have htlt : t.val < 32 := lt_of_lt_of_eq t.isLt hN
  obtain ⟨e0, e1⟩ := fin_out_index t
  show (cfg0.win 5).cut (grid0.coords t) ((dats m 0 c).after 5 t) = _
  rw [after0_5]
  funext y
  rw [View.read_apply]
  have hy0 : (y 0).val < 1024 := (y 0).isLt
  have hy1 : (y 1).val < 1 := (y 1).isLt
  have hL : (cfg0.win 5).xinj (grid0.coords t) y = ix2 (⟨(y 0).val, hy0⟩ : Fin 1024) (0 : Fin 1) := by
    funext a; apply Fin.ext
    match a with
    | ⟨0, _⟩ => rfl
    | ⟨1, _⟩ => show (y 1).val = 0; omega
  show (outsAt0 m c t.val t.isLt).1 ((cfg0.win 5).xinj (grid0.coords t) y) = _
  rw [hL, out_apply m c t ⟨t.val / 4, by omega⟩ (by show t.val = 4 * (t.val / 4) + 3; omega) ⟨(y 0).val, hy0⟩]
  show _ = minedHinge (E1 m c) (E2 m c) (TG m c) _
  refine congrArg (minedHinge (E1 m c) (E2 m c) (TG m c)) (Fin.ext ?_)
  show 1024 * (t.val / 4) + (y 0).val = win0_5.index t (0 : Fin 2) * 1024 + 1 * (y 0).val
  rw [e0]; omega

/-- After the region the result array holds every anchor's hinge. -/
theorem final_hinge (c : Dev nD) : (dats m 0 c).arrAt 5 cfg0.N = hingeCol m c :=
  (dats m 0 c).arrAt_eq_of_cover 5 (hingeCol m c) (fin_flushed_hinge m c) fun i => by
    have hN : cfg0.N = 32 := N_0
    have hi0 : (i 0).val < 8192 := (i 0).isLt
    have hi1 : (i 1).val < 1 := (i 1).isLt
    have htN : 4 * ((i 0).val / 1024) + 3 < cfg0.N := by rw [hN]; omega
    obtain ⟨e0, e1⟩ := fin_out_index ⟨4 * ((i 0).val / 1024) + 3, htN⟩
    refine ⟨⟨4 * ((i 0).val / 1024) + 3, htN⟩, (flush0_5 _).mpr (by show (4 * ((i 0).val / 1024) + 3) % 4 = 3; omega), ?_⟩
    show i ∈ ((View.whole main_v27).slice (win0_5.rect ⟨4 * ((i 0).val / 1024) + 3, htN⟩)).set
    rw [View.set_slice_whole, Rect.mem_set_unit]
    intro a
    match a with
    | ⟨0, _⟩ =>
      show win0_5.index ⟨4 * ((i 0).val / 1024) + 3, htN⟩ (0 : Fin 2) * 1024 ≤ (i 0).val
        ∧ (i 0).val < win0_5.index ⟨4 * ((i 0).val / 1024) + 3, htN⟩ (0 : Fin 2) * 1024 + 1024
      rw [e0]; show (4 * ((i 0).val / 1024) + 3) / 4 * 1024 ≤ (i 0).val ∧ (i 0).val < (4 * ((i 0).val / 1024) + 3) / 4 * 1024 + 1024
      omega
    | ⟨1, _⟩ =>
      show win0_5.index ⟨4 * ((i 0).val / 1024) + 3, htN⟩ (1 : Fin 2) * 1 ≤ (i 1).val
        ∧ (i 1).val < win0_5.index ⟨4 * ((i 0).val / 1024) + 3, htN⟩ (1 : Fin 2) * 1 + 1
      rw [e1]; omega

end Cert.KernelIdeal.Mined

end
-- ==== Proof.KTail.lean ====
/-
  The host operations after the region turn the per-anchor hinges into the loss: weight each by the positive-class
  mask, sum, and divide by the number of positive-class anchors. With the result array at the hinges this is the
  mined form of the loss; and so the whole program's run ends with its result at that value.
-/
import proofs.«420582_j30227979829905_3_alg».proof.Proof.Gen.KernelIdeal.Frame
import proofs.«420582_j30227979829905_3_alg».proof.Proof.KBlocks
import proofs.«420582_j30227979829905_3_alg».proof.Proof.KFinal
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Mined

open Cert.KernelIdeal Cert.KernelIdeal.Gen Cert.Triplet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- A vector's index set is its one coordinate's range. -/
def tail_idxEquiv {n : Nat} : (⟨1, ![n]⟩ : Shape).Idx ≃ Fin n where
  toFun i := i 0
  invFun a := ix1 a
  left_inv i := (eq_ix1 i).symm
  right_inv _ := rfl

/-- A sum over a vector's index set is the sum over its coordinate. -/
theorem tail_sum_idx {M : Type*} [AddCommMonoid M] {n : Nat} (f : (⟨1, ![n]⟩ : Shape).Idx → M) :
    ∑ i, f i = ∑ a : Fin n, f (ix1 a) := by
  rw [← Equiv.sum_comp (tail_idxEquiv (n := n)).symm f]
  rfl

/-- The host's sum of a vector of 8192 entries into a scalar, from zero: the sum of the entries. -/
theorem tail_hostSum (y : FVec Ideal S8192 .f32) (j : S_.Idx) :
    (Host.reduceAdd y (constant (F := Ideal) S_ .f32 0#32) reducesTo_S8192_S_d0 h_S_ : FVec Ideal S_ .f32) j
      = ∑ a : Fin 8192, y (ix1 a) := by
  simp only [Host.reduceAdd, Ideal.hostReduceAdd_def]
  refine (Ideal.hostReduceAdd_total reducesTo_S8192_S_d0 (fun b => b.elim0) y _ j).trans ?_
  rw [constant_apply, Ideal.ofBits_zero_f32, zero_add]
  exact tail_sum_idx y

/-- The weighted mean the tail computes, for any vector of per-anchor values and any vector of weights. -/
theorem tail_value (X W : FVec Ideal S8192 .f32) (hinge w : Fin 8192 → EReal)
    (hX : ∀ i : Fin 8192, X (ix1 i) = hinge i) (hW : ∀ j : Fin 8192, W (ix1 j) = w j) :
    (Host.divf
      (Host.reduceAdd (mulf X W) (constant (F := Ideal) S_ .f32 0#32) reducesTo_S8192_S_d0 h_S_)
      (Host.reduceAdd W (constant (F := Ideal) S_ .f32 0#32) reducesTo_S8192_S_d0 h_S_) : FVec Ideal S_ .f32)
    = fun _ => Ideal.div (∑ i, hinge i * w i) (∑ i, w i) := by
  funext j
  show Ideal.div _ _ = _
  rw [tail_hostSum, tail_hostSum]
  congr 1
  · refine Finset.sum_congr rfl fun a _ => ?_
    rw [mulf_apply, hW a, hX a]
  · exact Finset.sum_congr rfl fun a _ => hW a

/-- A column of 8192 entries read as a vector of 8192: entry `a` is the column's row `a`. -/
theorem tail_flat (H : Vec Ideal S8192x1 .f32) (a : Fin 8192) :
    shapeCast S8192 H shapeCasts_S8192x1_S8192 (ix1 a) = H (ix2 a (0 : Fin 1)) :=
  shapeCast_apply H shapeCasts_S8192x1_S8192 (ix1 a) (ix2 a (0 : Fin 1)) (by
      rw [Shape.rowMajor_val_two, Shape.rowMajor_val_one]; show a.val * 1 + 0 = a.val; omega)

/-- The result buffer after the operations that follow the region. -/
theorem tail_loss (c : Dev nD) :
    Pipeline.afterTail₀ cfgs (dats m) 0 (V0 m) [hostOps1] c main_v33
      = fun _ => minedLoss (E1 m c) (E2 m c) (TG m c) := by
  unfold Pipeline.afterTail₀
  show StableHlo.after hostOps1 _ (Proc.devRef .tc main_v33) = _
  after_results
  have h27 : Pipeline.withArrays (cfgs 0).spec c (V0 m c) (fun w => (dats m 0 c).arrAt w (cfgs 0).N) (Proc.tc.devRef main_v27) = hingeCol m c :=
    (Pipeline.withArrays_arr spec0 launch0.win.arr_inj c _ _ 5).trans (final_hinge m c)
  have h1 : Pipeline.withArrays (cfgs 0).spec c (V0 m c) (fun w => (dats m 0 c).arrAt w (cfgs 0).N) (Proc.tc.devRef main_v1) = V m c main_v1 :=
    Pipeline.withArrays_of_ne spec0 c _ _ main_v1 (by decide)
  rw [h27, h1]
  exact tail_value _ _ (minedHinge (E1 m c) (E2 m c) (TG m c)) (wt (TG m c))
    (fun i => (tail_flat (hingeCol m c) i).trans rfl) (maskWeight_apply m c)

/-- The idealized kernel program's run: it terminates with its result at the mined loss of the arguments, which it leaves unchanged. -/
theorem run_loss (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = (fun _ => minedLoss (E1 m c) (E2 m c) (TG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v33 (Pipeline.mem_restRefs_of main_v33 (by decide) (by decide))).trans (tail_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Mined

end
-- ==== Proof.lean ====
/-
  A batch-hard triplet loss on 8192 anchors and 8192 candidates of dimension 128, computed two ways.

  The kernel program splits the squared distance |e1_i − e2_j + ε|² into a cross term (a 1024 × 2048 tile of
  `e1 · (−2·e2)ᵀ` per grid point), a column term fused with the class masks into two bias rows (−∞ off the positive
  class, +∞ off the negative class) and a row term; it keeps a lane-wide running maximum and running minimum of
  `cross + bias` over the four column tiles of a row block, and only after the last tile adds the row term, clamps at
  0, takes the two square roots and forms the hinge; the host then takes the weighted mean over positive-class
  anchors. The reference forms the whole distance matrix `√max(sq, 0)`, takes the masked maximum and minimum of the
  distances, and the same weighted mean.

  At the extended reals the kernel's result is the MINED form of the loss and the reference's the DIRECT form
  (Proof/Spec.lean), each read off its program operation by operation; on finite embeddings — the precondition — the
  two forms are equal (Proof/Bridge.lean): the square root of a clamp is monotone, so it commutes with a maximum or
  minimum over candidates; a finite row term commutes with them; the three-way split is a ring identity over the
  reals; and an anchor outside the positive class, where the two forms may differ, has weight 0.

  The frames of the two kernel programs are the generated frame certificates; the reference's frame is its run with
  the result dropped; the idealization rewrote no operation, so `preserves` is `True`.
-/
import proofs.«420582_j30227979829905_3_alg».proof.Defs
import proofs.«420582_j30227979829905_3_alg».proof.Proof.Gen.Kernel
import proofs.«420582_j30227979829905_3_alg».proof.Proof.Gen.Kernel.Frame
import proofs.«420582_j30227979829905_3_alg».proof.Proof.Gen.KernelIdeal
import proofs.«420582_j30227979829905_3_alg».proof.Proof.Gen.KernelIdeal.Frame
import proofs.«420582_j30227979829905_3_alg».proof.Proof.Gen.ReferenceIdeal
import proofs.«420582_j30227979829905_3_alg».proof.Proof.Gen.ReferenceIdeal.Run
import proofs.«420582_j30227979829905_3_alg».proof.Proof.Gen.ReferenceIdeal.Read
import proofs.«420582_j30227979829905_3_alg».proof.Proof.Gen.Pre_finite_inputs
import proofs.«420582_j30227979829905_3_alg».proof.Proof.Spec
import proofs.«420582_j30227979829905_3_alg».proof.Proof.Bridge
import proofs.«420582_j30227979829905_3_alg».proof.Proof.FiniteInputs
import proofs.«420582_j30227979829905_3_alg».proof.Proof.RefValue
import proofs.«420582_j30227979829905_3_alg».proof.Proof.KTail
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame certificate. -/
theorem frame_k [Cert.Kernel.Facts] [Cert.Pre_finite_inputs.Facts] : Cert.frame_Kernel :=
  fun m ρ _ => Cert.Kernel.Gen.frame m ρ

/-- The idealized kernel program likewise. -/
theorem frame_ki [Cert.KernelIdeal.Facts] [Cert.Pre_finite_inputs.Facts] : Cert.frame_KernelIdeal :=
  fun m ρ _ => Cert.KernelIdeal.Gen.frame m ρ

/-- The reference runs and keeps its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments, the idealized kernel ends at the mined form of the loss and the
    reference at the direct form; the precondition makes the embeddings finite, where the two forms are one. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c _ => Cert.Triplet.minedLoss (Cert.KernelIdeal.Mined.E1 m c) (Cert.KernelIdeal.Mined.E2 m c)
    (Cert.KernelIdeal.Mined.TG m c), Cert.KernelIdeal.Mined.run_loss m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.val_eq_directLoss,
    (hagree c).1, (hagree c).2.1, (hagree c).2.2]
  have hfin := Cert.Triplet.finite_of_pre _ _ _ (hpre c)
  funext _
  exact (Cert.Triplet.minedLoss_eq_directLoss _ _ _ hfin.1 hfin.2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
